-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x28x28 : Shape := ⟨4, ![128, 256, 28, 28]⟩
abbrev S512x256 : Shape := ⟨2, ![512, 256]⟩
abbrev S512 : Shape := ⟨1, ![512]⟩
abbrev S16x512 : Shape := ⟨2, ![16, 512]⟩
abbrev S16 : Shape := ⟨1, ![16]⟩
abbrev S_ : Shape := ⟨0, ![]⟩

class Facts : Prop where
  bcast_S_S128x256x28x28 : S_.BroadcastsInDim S128x256x28x28 (![] : Fin 0 → Fin S128x256x28x28.rank)
  reducesTo_S128x256x28x28_S_d0_1_2_3 : S128x256x28x28.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg6 : FVec F S512 .f32) (main_arg7 : FVec F S16x512 .f32) (main_arg8 : FVec F S16 .f32) (main_v33 : IVec S_ 1) : IVec S_ 1 :=
  let main_v34 : FVec F S16x512 .f32 := Host.absf main_arg7
  let main_cst_12 : FVec F S_ .f32 := constant S_ .f32 0x7F800000#32
  let main_v35 : FVec F S16x512 .f32 := broadcastInDim S16x512 ![] bcast_S_S16x512 main_cst_12
  let main_v36 : IVec S16x512 1 := cmpf .olt main_v34 main_v35
  let main_c_13 : IVec S_ 1 := constantI S_ 1 1#1
  let main_v37 : IVec S_ 1 := (fun x v => Host.reduce IntOp.andi x v reducesTo_S16x512_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_cst_16 : FVec F S_ .f32 := constant S_ .f32 0x00000000#32
  let main_v44 : FVec F S512 .f32 := broadcastInDim S512 ![] bcast_S_S512 main_cst_16
  let main_v45 : IVec S512 1 := cmpf .oge main_arg6 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v43 main_v46
  main_v47

def fn_part1 {F : FTy → Type} [FloatOps F] (main_arg4 : FVec F S512 .f32) (main_arg5 : FVec F S512 .f32) (main_arg6 : FVec F S512 .f32) (main_arg7 : FVec F S16x512 .f32) (main_arg8 : FVec F S16 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_v33

def fn {F : FTy → Type} [FloatOps F] (main_arg0 : FVec F S128x256x28x28 .f32) (main_arg1 : FVec F S512x256 .f32) (main_arg2 : FVec F S512 .f32) (main_arg3 : FVec F S512 .f32) (main_arg4 : FVec F S512 .f32) (main_arg5 : FVec F S512 .f32) (main_arg6 : FVec F S512 .f32) (main_arg7 : FVec F S16x512 .f32) (main_arg8 : FVec F S16 .f32) : IVec S_ 1 :=
  let main_v0 : FVec F S128x256x28x28 .f32 := Host.absf main_arg0
  let main_cst : FVec F S_ .f32 := constant S_ .f32 0x7F800000#32
  let main_v1 : FVec F S128x256x28x28 .f32 := broadcastInDim S128x256x28x28 ![] bcast_S_S128x256x28x28 main_cst
  let main_v2 : IVec S128x256x28x28 1 := cmpf .olt main_v0 main_v1
  let main_c : IVec S_ 1 := constantI S_ 1 1#1
  let main_v3 : IVec S_ 1 := (fun x v => Host.reduce IntOp.andi x v reducesTo_S128x256x28x28_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S128x256x28x28 : Shape := ⟨4, ![128, 256, 28, 28]⟩
abbrev S512x256 : Shape := ⟨2, ![512, 256]⟩
abbrev S512 : Shape := ⟨1, ![512]⟩
abbrev S16x512 : Shape := ⟨2, ![16, 512]⟩
abbrev S16 : Shape := ⟨1, ![16]⟩
abbrev S_ : Shape := ⟨0, ![]⟩
abbrev S1x512 : Shape := ⟨2, ![1, 512]⟩
abbrev S1x16 : Shape := ⟨2, ![1, 16]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S28x28x128x256 : Shape := ⟨4, ![28, 28, 128, 256]⟩
abbrev S784x128x256 : Shape := ⟨3, ![784, 128, 256]⟩
abbrev S784x16x256 : Shape := ⟨3, ![784, 16, 256]⟩
abbrev S16x16 : Shape := ⟨2, ![16, 16]⟩
abbrev S1x16x256 : Shape := ⟨3, ![1, 16, 256]⟩

abbrev nBuf : Space → Nat
  | .hbm => 52
  | .vmem => 10
  | .smem => 0
  | _ => 0

abbrev bufTy : (tb : Table) → Fin (tcTables nBuf tb) → BufTy
  | .hbm, ⟨0, _⟩ => ⟨S128x256x28x28, .f32⟩
  | .hbm, ⟨1, _⟩ => ⟨S512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S16x512, .f32⟩
  | .hbm, ⟨8, _⟩ => ⟨S16, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x16, .f32⟩
  | .hbm, ⟨21, _⟩ => ⟨S16, .i32⟩
  | .hbm, ⟨22, _⟩ => ⟨S16x1, .i32⟩
  | .hbm, ⟨23, _⟩ => ⟨S256, .i32⟩
  | .hbm, ⟨24, _⟩ => ⟨S1x256, .i32⟩
  | .hbm, ⟨25, _⟩ => ⟨S_, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i1⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i1⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S16x256, .i32⟩
  | .hbm, ⟨44, _⟩ => ⟨S16x256, .i32⟩
  | .hbm, ⟨45, _⟩ => ⟨S16x256, .i1⟩
  | .hbm, ⟨46, _⟩ => ⟨S16x256, .f32⟩
  | .hbm, ⟨47, _⟩ => ⟨S28x28x128x256, .f32⟩
  | .hbm, ⟨48, _⟩ => ⟨S784x128x256, .f32⟩
  | .hbm, ⟨49, _⟩ => ⟨S784x128x256, .f32⟩
  | .hbm, ⟨50, _⟩ => ⟨S28x28x128x256, .f32⟩
  | .hbm, ⟨51, _⟩ => ⟨S128x256x28x28, .f32⟩
  | .local _ .vmem, ⟨0, _⟩ => ⟨S784x16x256, .f32⟩
  | .local _ .vmem, ⟨1, _⟩ => ⟨S784x16x256, .f32⟩
  | .local _ .vmem, ⟨2, _⟩ => ⟨S512x256, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S1x16, .f32⟩
  | .local _ .vmem, ⟨7, _⟩ => ⟨S16x256, .f32⟩
  | .local _ .vmem, ⟨8, _⟩ => ⟨S784x16x256, .f32⟩
  | .local _ .vmem, ⟨9, _⟩ => ⟨S784x16x256, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S784x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S784x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S512 : S_.BroadcastsInDim S512 (![] : Fin 0 → Fin S512.rank)
  shapeCasts_S512_S1x512 : S512.ShapeCasts S1x512
  shapeCasts_S16_S1x16 : S16.ShapeCasts S1x16
  bcast_S16_S16x1_0 : S16.BroadcastsInDim S16x1 (![0] : Fin 1 → Fin S16x1.rank)
  bcast_S256_S1x256_1 : S256.BroadcastsInDim S1x256 (![1] : Fin 1 → Fin S1x256.rank)
  bcast_S_S1x256 : S_.BroadcastsInDim S1x256 (![] : Fin 0 → Fin S1x256.rank)
  bcast_S16x1_S16x256_0_1 : S16x1.BroadcastsInDim S16x256 (![0, 1] : Fin 2 → Fin S16x256.rank)
  bcast_S1x256_S16x256_0_1 : S1x256.BroadcastsInDim S16x256 (![0, 1] : Fin 2 → Fin S16x256.rank)
  transposes_S128x256x28x28_S28x28x128x256_2_3_0_1 : S128x256x28x28.Transposes [2, 3, 0, 1] S28x28x128x256
  shapeCasts_S28x28x128x256_S784x128x256 : S28x28x128x256.ShapeCasts S784x128x256
  inb_S784x16x256_S784x16x256_0_0_0 : ∀ a, (![0, 0, 0] : Fin 3 → Nat) a + S784x16x256.size a ≤ S784x16x256.size a
  h_S784x16x256 : 0 < S784x16x256.numel
  shapeCasts_S784x16x256_S784x16x256 : S784x16x256.ShapeCasts S784x16x256
  reduces_S784x16x256_S16x256 : S784x16x256.Reduces [0] S16x256
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16x16 : S1x16.Broadcasts S16x16
  reduces_S16x16_S16 : S16x16.Reduces [1] S16
  shapeCasts_S16_S16x1 : S16.ShapeCasts S16x1
  broadcasts_S16x1_S16x16 : S16x1.Broadcasts S16x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S1x16x256 : S16x256.ShapeCasts S1x16x256
  broadcasts_S1x16x256_S784x16x256 : S1x16x256.Broadcasts S784x16x256
  shapeCasts_S784x128x256_S28x28x128x256 : S784x128x256.ShapeCasts S28x28x128x256
  transposes_S28x28x128x256_S128x256x28x28_2_3_0_1 : S28x28x128x256.Transposes [2, 3, 0, 1] S128x256x28x28
  dot_S16x256_S512x256_S16x512_1_1_0_0_n_n_wf : DotDims.WF S16x256 S512x256 S16x512 [1] [1] [0] [0] [] []
  dot_S16x512_S16x512_S16x16_1_1_0_0_n_n_wf : DotDims.WF S16x512 S16x512 S16x16 [1] [1] [0] [0] [] []
  dot_S16x16_S16x256_S16x256_1_0_0_1_n_n_wf : DotDims.WF S16x16 S16x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x16x256.size a ≤ S784x128x256.size a
  hwx0_0 : ∀ i : grid0.Coords, EltTy.bits .f32 = 32 ∨ (Rect.block (s := S784x128x256) S784x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x512.size a
  hwx0_4 : ∀ i : grid0.Coords, EltTy.bits .f32 = 32 ∨ (Rect.block (s := S16x512) S16x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .f32 = 32 ∨ (Rect.block (s := S16x256) S16x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S784x16x256.size a ≤ S784x128x256.size a
  hwx0_7 : ∀ i : grid0.Coords, EltTy.bits .f32 = 32 ∨ (Rect.block (s := S784x128x256) S784x16x256.size (cc0_transform_7 i) (hinb0_7 i)).WholeWords (EltTy.packing .f32)

variable [Facts₀]

def dot_S16x256_S512x256_S16x512_1_1_0_0_n_n : DotDims S16x256 S512x256 S16x512 where
  lhsContracting := [1]
  rhsContracting := [1]
  lhsNonContracting := [0]
  rhsNonContracting := [0]
  lhsBatch := []
  rhsBatch := []
  wf := dot_S16x256_S512x256_S16x512_1_1_0_0_n_n_wf
def dot_S16x512_S16x512_S16x16_1_1_0_0_n_n : DotDims S16x512 S16x512 S16x16 where
  lhsContracting := [1]
  rhsContracting := [1]
  lhsNonContracting := [0]
  rhsNonContracting := [0]
  lhsBatch := []
  rhsBatch := []
  wf := dot_S16x512_S16x512_S16x16_1_1_0_0_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf

abbrev win0_0 : Pipeline.Window sig grid0 :=
  Pipeline.Window.ofSpec (Memref.whole main_v21) S784x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S16x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S16x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S784x16x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x256x28x28 : Shape := ⟨4, ![128, 256, 28, 28]⟩
abbrev S512x256 : Shape := ⟨2, ![512, 256]⟩
abbrev S512 : Shape := ⟨1, ![512]⟩
abbrev S16x512 : Shape := ⟨2, ![16, 512]⟩
abbrev S16 : Shape := ⟨1, ![16]⟩
abbrev S_ : Shape := ⟨0, ![]⟩
abbrev S512x1 : Shape := ⟨2, ![512, 1]⟩
abbrev S16x1 : Shape := ⟨2, ![16, 1]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S128x256x784 : Shape := ⟨3, ![128, 256, 784]⟩
abbrev S128x256x896 : Shape := ⟨3, ![128, 256, 896]⟩
abbrev S128x256x1 : Shape := ⟨3, ![128, 256, 1]⟩
abbrev S1x256x896 : Shape := ⟨3, ![1, 256, 896]⟩
abbrev S1x256x1 : Shape := ⟨3, ![1, 256, 1]⟩
abbrev S256x896 : Shape := ⟨2, ![256, 896]⟩
abbrev S1 : Shape := ⟨1, ![1]⟩
abbrev S1x1 : Shape := ⟨2, ![1, 1]⟩

abbrev nBuf : Space → Nat
  | .hbm => 56
  | .vmem => 17
  | .smem => 0
  | _ => 0

abbrev bufTy : (tb : Table) → Fin (tcTables nBuf tb) → BufTy
  | .hbm, ⟨0, _⟩ => ⟨S128x256x28x28, .f32⟩
  | .hbm, ⟨1, _⟩ => ⟨S512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S16x512, .f32⟩
  | .hbm, ⟨8, _⟩ => ⟨S16, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1, .f32⟩
  | .hbm, ⟨15, _⟩ => ⟨S512x256, .f32⟩
  | .hbm, ⟨16, _⟩ => ⟨S512x256, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512x1, .f32⟩
  | .hbm, ⟨21, _⟩ => ⟨S16x1, .f32⟩
  | .hbm, ⟨22, _⟩ => ⟨S256, .i32⟩
  | .hbm, ⟨23, _⟩ => ⟨S256x1, .i32⟩
  | .hbm, ⟨24, _⟩ => ⟨S_, .i32⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S256x1, .i1⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x1, .i32⟩
  | .hbm, ⟨42, _⟩ => ⟨S16, .i32⟩
  | .hbm, ⟨43, _⟩ => ⟨S1x16, .i32⟩
  | .hbm, ⟨44, _⟩ => ⟨S256x16, .i32⟩
  | .hbm, ⟨45, _⟩ => ⟨S256x16, .i32⟩
  | .hbm, ⟨46, _⟩ => ⟨S256x16, .i1⟩
  | .hbm, ⟨47, _⟩ => ⟨S256x16, .f32⟩
  | .hbm, ⟨48, _⟩ => ⟨S128x256x784, .f32⟩
  | .hbm, ⟨49, _⟩ => ⟨S_, .i32⟩
  | .hbm, ⟨50, _⟩ => ⟨S_, .f32⟩
  | .hbm, ⟨51, _⟩ => ⟨S128x256x896, .f32⟩
  | .hbm, ⟨52, _⟩ => ⟨S128x256x1, .f32⟩
  | .hbm, ⟨53, _⟩ => ⟨S128x256x896, .f32⟩
  | .hbm, ⟨54, _⟩ => ⟨S128x256x784, .f32⟩
  | .hbm, ⟨55, _⟩ => ⟨S128x256x28x28, .f32⟩
  | .local _ .vmem, ⟨0, _⟩ => ⟨S1x256x896, .f32⟩
  | .local _ .vmem, ⟨1, _⟩ => ⟨S1x256x896, .f32⟩
  | .local _ .vmem, ⟨2, _⟩ => ⟨S512x256, .f32⟩
  | .local _ .vmem, ⟨3, _⟩ => ⟨S512x1, .f32⟩
  | .local _ .vmem, ⟨4, _⟩ => ⟨S16x512, .f32⟩
  | .local _ .vmem, ⟨5, _⟩ => ⟨S16x1, .f32⟩
  | .local _ .vmem, ⟨6, _⟩ => ⟨S256x16, .f32⟩
  | .local _ .vmem, ⟨7, _⟩ => ⟨S1x256x1, .f32⟩
  | .local _ .vmem, ⟨8, _⟩ => ⟨S1x256x1, .f32⟩
  | .local _ .vmem, ⟨9, _⟩ => ⟨S256x1, .f32⟩
  | .local _ .vmem, ⟨10, _⟩ => ⟨S256x1, .f32⟩
  | .local _ .vmem, ⟨11, _⟩ => ⟨S1x256x896, .f32⟩
  | .local _ .vmem, ⟨12, _⟩ => ⟨S1x256x896, .f32⟩
  | .local _ .vmem, ⟨13, _⟩ => ⟨S1x256x1, .f32⟩
  | .local _ .vmem, ⟨14, _⟩ => ⟨S1x256x1, .f32⟩
  | .local _ .vmem, ⟨15, _⟩ => ⟨S1x256x896, .f32⟩
  | .local _ .vmem, ⟨16, _⟩ => ⟨S1x256x896, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_0 : Ref sig .tc := ⟨.hbm, 49, rfl⟩
abbrev main_call1_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_13 : BitVec 32 := 0#32
  let v27 : BitVec 1 := Scalar.cmpi .eq arg1 c0_i32_13
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![128, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x896 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  shapeCasts_S512_S512x1 : S512.ShapeCasts S512x1
  shapeCasts_S16_S16x1 : S16.ShapeCasts S16x1
  bcast_S256_S256x1_0 : S256.BroadcastsInDim S256x1 (![0] : Fin 1 → Fin S256x1.rank)
  bcast_S_S256x1 : S_.BroadcastsInDim S256x1 (![] : Fin 0 → Fin S256x1.rank)
  bcast_S16_S1x16_1 : S16.BroadcastsInDim S1x16 (![1] : Fin 1 → Fin S1x16.rank)
  bcast_S256x1_S256x16_0_1 : S256x1.BroadcastsInDim S256x16 (![0, 1] : Fin 2 → Fin S256x16.rank)
  bcast_S1x16_S256x16_0_1 : S1x16.BroadcastsInDim S256x16 (![0, 1] : Fin 2 → Fin S256x16.rank)
  shapeCasts_S128x256x28x28_S128x256x784 : S128x256x28x28.ShapeCasts S128x256x784
  pads_S128x256x784_S128x256x896_000_000_01120 : S128x256x784.Pads (![0, 0, 0] : Fin 3 → Nat) ![0, 0, 112] ![0, 0, 0] S128x256x896
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x896_S1x256x896_0_0_0 : ∀ a, (![0, 0, 0] : Fin 3 → Nat) a + S1x256x896.size a ≤ S1x256x896.size a
  h_S1x256x896 : 0 < S1x256x896.numel
  shapeCasts_S1x256x896_S256x896 : S1x256x896.ShapeCasts S256x896
  iota_S256x896_d1_w32 : S256x896.Iotas .tc 32 [1]
  reduces_S256x896_S256 : S256x896.Reduces [1] S256
  shapeCasts_S256_S256x1 : S256.ShapeCasts S256x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S16x512_S16x512_0_0 : ∀ a, (![0, 0] : Fin 2 → Nat) a + S16x512.size a ≤ S16x512.size a
  h_S16x512 : 0 < S16x512.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x1_S1 : S16x1.Reduces [0] S1
  shapeCasts_S1_S1x1 : S1.ShapeCasts S1x1
  broadcasts_S1x1_S16x1 : S1x1.Broadcasts S16x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  broadcasts_S256x1_S256x896 : S256x1.Broadcasts S256x896
  shapeCasts_S256x896_S1x256x896 : S256x896.ShapeCasts S1x256x896
  slices_S128x256x896_S128x256x784_0_0_0 : S128x256x896.Slices ![0, 0, 0] S128x256x784
  shapeCasts_S128x256x784_S128x256x28x28 : S128x256x784.ShapeCasts S128x256x28x28
  dot_S512x256_S256x1_S512x1_1_0_0_1_n_n_wf : DotDims.WF S512x256 S256x1 S512x1 [1] [0] [0] [1] [] []
  dot_S16x512_S512x1_S16x1_1_0_0_1_n_n_wf : DotDims.WF S16x512 S512x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x896.size a ≤ S128x256x896.size a
  hwx0_0 : ∀ i : grid0.Coords, EltTy.bits .f32 = 32 ∨ (Rect.block (s := S128x256x896) S1x256x896.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x512.size a
  hwx0_3 : ∀ i : grid0.Coords, EltTy.bits .f32 = 32 ∨ (Rect.block (s := S16x512) S16x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1.size a ≤ S128x256x1.size a
  hwx0_6 : ∀ i : grid0.Coords, EltTy.bits .f32 = 32 ∨ (Rect.block (s := S128x256x1) S1x256x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x896.size a ≤ S128x256x896.size a
  hwx1_0 : ∀ i : grid1.Coords, EltTy.bits .f32 = 32 ∨ (Rect.block (s := S128x256x896) S1x256x896.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S128x256x1.size a
  hwx1_1 : ∀ i : grid1.Coords, EltTy.bits .f32 = 32 ∨ (Rect.block (s := S128x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x896.size a ≤ S128x256x896.size a
  hwx1_2 : ∀ i : grid1.Coords, EltTy.bits .f32 = 32 ∨ (Rect.block (s := S128x256x896) S1x256x896.size (cc1_transform_2 i) (hinb1_2 i)).WholeWords (EltTy.packing .f32)

variable [Facts₀]

def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S16x512_S512x1_S16x1_1_0_0_1_n_n : DotDims S16x512 S512x1 S16x1 where
  lhsContracting := [1]
  rhsContracting := [0]
  lhsNonContracting := [0]
  rhsNonContracting := [1]
  lhsBatch := []
  rhsBatch := []
  wf := dot_S16x512_S512x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v22) S1x256x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S16x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v22) S1x256x896.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x256x896.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  Channel attention over groups, as mathematics on the extended reals.

  For one batch element b and channel c the spatial fibre x[b, c, ·, ·] (784 = 28 · 28 positions, row-major) is pooled
  to  s[b, c] = (∑ₚ x) · κ + maxₚ x,  κ the f32 word nearest 1/784.  A hidden layer of 512 units follows: batch
  normalisation in inference mode is an affine map  y ↦ g_j · (y + b1_j − rm_j) + beta_j  with gain
  g_j = gamma_j / √(rv_j + ε), so unit j is  max(0, g_j · (∑_c s_c · w1[j, c]) + g_j · (b1_j − rm_j) + beta_j).
  One program multiplies the contracted sum by the gain (`hidK`), the other folds the gain into the weights before
  contracting (`hidR`); these agree when the pooled values, the weights and the gain are real numbers
  (distributivity, which fails on the extended reals at infinities).  Sixteen group logits, a softmax over the groups,
  and the expansion of the sixteen group weights to 256 channels through a 0/1 membership matrix E give the scale of
  channel ch; the result is x[b, ch, ·, ·] times that scale.
-/
import Idealize.ShloMosaic.PureOps.Ideal
import Idealize.ShloMosaic.PureOps.Ideal.Laws
import Idealize.ShloMosaic.Lib.ValueIdx

noncomputable section

namespace Cert.GroupAtt

open Idealize.ShloMosaic Idealize.ShloMosaic.ValueIdx

/-- The shapes of the nine arguments (x; w1; b1, gamma, beta, running mean, running variance; w2; b2). -/
abbrev SX : Shape := ⟨4, ![128, 256, 28, 28]⟩
abbrev SW1 : Shape := ⟨2, ![512, 256]⟩
abbrev SV : Shape := ⟨1, ![512]⟩
abbrev SW2 : Shape := ⟨2, ![16, 512]⟩
abbrev SB : Shape := ⟨1, ![16]⟩

/-- κ: the f32 word nearest 1/784, carried by both programs. -/
def invHW : EReal := Ideal.ofBits .f32 0x3AA72F05#32
/-- ε: the f32 word nearest 1e-5, carried by both programs. -/
def bnEps : EReal := Ideal.ofBits .f32 0x3727C5AC#32

/-- The spatial fibre of x at (b, c), position p = 28·h + w. -/
def fibre (x : FVec Ideal SX .f32) (b : Fin 128) (c : Fin 256) (p : Fin 784) : EReal :=
  x (ix4 b c ⟨p.val / 28, by have := p.isLt; omega⟩ ⟨p.val % 28, Nat.mod_lt _ (by norm_num)⟩)

/-- The pooled statistic of a fibre: its sum times κ, plus its maximum. -/
def pool (f : Fin 784 → EReal) : EReal := (∑ p : Fin 784, f p) * invHW + Finset.univ.fold max ⊥ f

/-- The batch-normalisation gain of hidden unit j. -/
def gain (gamma rv : FVec Ideal SV .f32) (j : Fin 512) : EReal :=
  Ideal.div (gamma (ix1 j)) (Ideal.sqrt (rv (ix1 j) + bnEps))

/-- The batch-normalisation offset of hidden unit j. -/
def shift (gamma rv b1 rm beta : FVec Ideal SV .f32) (j : Fin 512) : EReal :=
  gain gamma rv j * (b1 (ix1 j) - rm (ix1 j)) + beta (ix1 j)

/-- The pooled statistic as a program computes it that holds the fibre padded to 896 lanes: the sum runs over all
    896 lanes from an accumulator at zero, the maximum over the first 784 (the others masked to −∞) from an
    accumulator at −∞. -/
def poolPad (f : Fin 896 → EReal) : EReal :=
  (0 + ∑ q : Fin 896, f q) * invHW + max ⊥ (Finset.univ.fold max ⊥ fun q : Fin 896 => if q.val < 784 then f q else ⊥)

/-- Hidden unit j, the gain applied AFTER the contraction over channels. -/
def hidK (s : Fin 256 → EReal) (w1 : Fin 512 → Fin 256 → EReal) (g cc : Fin 512 → EReal) (j : Fin 512) : EReal :=
  max ((∑ c : Fin 256, s c * w1 j c) * g j + cc j) 0

/-- Hidden unit j over weights `w` that already carry the gain. -/
def hidR0 (s : Fin 256 → EReal) (w : Fin 512 → Fin 256 → EReal) (cc : Fin 512 → EReal) (j : Fin 512) : EReal :=
  max ((∑ c : Fin 256, w j c * s c) + cc j) 0

/-- Hidden unit j, the gain folded into the weights BEFORE the contraction. -/
def hidR (s : Fin 256 → EReal) (w1 : Fin 512 → Fin 256 → EReal) (g cc : Fin 512 → EReal) (j : Fin 512) : EReal :=
  hidR0 s (fun j c => w1 j c * g j) cc j

/-- Group logit k. -/
def logit (h : Fin 512 → EReal) (w2 : Fin 16 → Fin 512 → EReal) (b2 : Fin 16 → EReal) (k : Fin 16) : EReal :=
  (∑ j : Fin 512, h j * w2 k j) + b2 k

/-- Softmax over the sixteen groups, shifted by the maximum. -/
def smax (l : Fin 16 → EReal) (k : Fin 16) : EReal :=
  Ideal.div (Ideal.exp (l k - Finset.univ.fold max ⊥ l)) (∑ k' : Fin 16, Ideal.exp (l k' - Finset.univ.fold max ⊥ l))

/-- The scale of channel ch: the group weights expanded through the membership matrix E (E k ch = 1 iff channel ch
    belongs to group k). -/
def scale (a : Fin 16 → EReal) (E : Fin 16 → Fin 256 → EReal) (ch : Fin 256) : EReal := ∑ k : Fin 16, a k * E k ch

/-- From the hidden layer to the channel scale. -/
def attn (h : Fin 512 → EReal) (w2 : Fin 16 → Fin 512 → EReal) (b2 : Fin 16 → EReal) (E : Fin 16 → Fin 256 → EReal)
    (ch : Fin 256) : EReal := scale (smax (logit h w2 b2)) E ch

/-- The scale of channel ch of batch element b, the gain applied after the contraction. -/
def scaleK (E : Fin 16 → Fin 256 → EReal) (x : FVec Ideal SX .f32) (w1 : FVec Ideal SW1 .f32)
    (b1 gamma beta rm rv : FVec Ideal SV .f32) (w2 : FVec Ideal SW2 .f32) (b2 : FVec Ideal SB .f32)
    (b : Fin 128) (ch : Fin 256) : EReal :=
  attn (hidK (fun c => pool (fibre x b c)) (fun j c => w1 (ix2 j c)) (gain gamma rv) (shift gamma rv b1 rm beta))
    (fun k j => w2 (ix2 k j)) (fun k => b2 (ix1 k)) E ch

/-- The scale of channel ch of batch element b, the gain folded into the weights. -/
def scaleR (E : Fin 16 → Fin 256 → EReal) (x : FVec Ideal SX .f32) (w1 : FVec Ideal SW1 .f32)
    (b1 gamma beta rm rv : FVec Ideal SV .f32) (w2 : FVec Ideal SW2 .f32) (b2 : FVec Ideal SB .f32)
    (b : Fin 128) (ch : Fin 256) : EReal :=
  attn (hidR (fun c => pool (fibre x b c)) (fun j c => w1 (ix2 j c)) (gain gamma rv) (shift gamma rv b1 rm beta))
    (fun k j => w2 (ix2 k j)) (fun k => b2 (ix1 k)) E ch

/-- The whole result array: x times the scale of its batch element and channel. -/
def outK (E : Fin 16 → Fin 256 → EReal) (x : FVec Ideal SX .f32) (w1 : FVec Ideal SW1 .f32)
    (b1 gamma beta rm rv : FVec Ideal SV .f32) (w2 : FVec Ideal SW2 .f32) (b2 : FVec Ideal SB .f32) :
    FVec Ideal SX .f32 := fun i => x i * scaleK E x w1 b1 gamma beta rm rv w2 b2 (i 0) (i 1)

def outR (E : Fin 16 → Fin 256 → EReal) (x : FVec Ideal SX .f32) (w1 : FVec Ideal SW1 .f32)
    (b1 gamma beta rm rv : FVec Ideal SV .f32) (w2 : FVec Ideal SW2 .f32) (b2 : FVec Ideal SB .f32) :
    FVec Ideal SX .f32 := fun i => x i * scaleR E x w1 b1 gamma beta rm rv w2 b2 (i 0) (i 1)

end Cert.GroupAtt

end
-- ==== Proof.Algebra.lean ====
/-
  The laws that join the two arrangements of the computation: the padded pooling is the pooling, the two
  literal words that matter, and the hidden layer with the gain applied after the contraction is the hidden layer
  with the gain folded into the weights, when the pooled values, the weights and the gain are real numbers.
-/
import proofs.«148205_g2000704464797211_pallasbulk_780_16_alg».proof.Proof.Spec

noncomputable section

namespace Cert.GroupAtt

open Idealize.ShloMosaic Idealize.ShloMosaic.ValueIdx

/-- The f32 word of −∞ is the bottom of the extended reals. -/
theorem ofBits_negInf : Ideal.ofBits .f32 0xFF800000#32 = (⊥ : EReal) := by
  simp [Ideal.ofBits, Ideal.ieee]

/-- The coercion of a finite sum of reals is the sum of the coercions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- κ is a real number: its exponent field is neither all ones nor zero. -/
theorem invHW_real : ∃ k : ℝ, invHW = (k : EReal) := by
  unfold invHW Ideal.ofBits Ideal.ieee
  simp only []
  rw [if_neg (by decide), if_neg (by decide)]
  exact ⟨_, rfl⟩

/-- ε is a positive real number: a normal word with the sign bit clear. -/
theorem bnEps_pos : ∃ e : ℝ, 0 < e ∧ bnEps = (e : EReal) := by
  unfold bnEps Ideal.ofBits Ideal.ieee
  simp only []
  rw [if_neg (by decide), if_neg (by decide)]
  refine ⟨_, ?_, rfl⟩
  rw [if_neg (by decide)]
  positivity

/-- Pooling a fibre padded with zeros to 896 lanes is pooling the fibre. -/
theorem poolPad_eq (f : Fin 896 → EReal) (h0 : ∀ q : Fin 896, 784 ≤ q.val → f q = 0) :
    poolPad f = pool (fun p : Fin 784 => f ⟨p.val, by have := p.isLt; omega⟩) := by
  -- the sum: 896 = 784 + 112, and the last 112 lanes hold zero
  have hsum : (∑ q : Fin 896, f q) = ∑ p : Fin 784, f ⟨p.val, by have := p.isLt; omega⟩ := by
    have h := Fin.sum_univ_add (a := 784) (b := 112) f
    rw [h]
    have ht : (∑ i : Fin 112, f (Fin.natAdd 784 i)) = 0 :=
      Finset.sum_eq_zero fun i _ => h0 _ (by simp [Fin.natAdd])
    rw [ht, add_zero]
    rfl
  -- the maximum: a fold of max from ⊥ is a supremum, and the two suprema bound each other
  have hmax : max ⊥ (Finset.univ.fold max ⊥ fun q : Fin 896 => if q.val < 784 then f q else ⊥)
      = Finset.univ.fold max ⊥ (fun p : Fin 784 => f ⟨p.val, by have := p.isLt; omega⟩) := by
    rw [max_eq_right bot_le]
    show Finset.univ.sup (fun q : Fin 896 => if q.val < 784 then f q else ⊥)
      = Finset.univ.sup (fun p : Fin 784 => f ⟨p.val, by have := p.isLt; omega⟩)
    apply le_antisymm
    · refine Finset.sup_le fun q _ => ?_
      split_ifs with h
      · exact Finset.le_sup (f := fun p : Fin 784 => f ⟨p.val, by have := p.isLt; omega⟩)
          (Finset.mem_univ (⟨q.val, h⟩ : Fin 784))
      · exact bot_le
    · refine Finset.sup_le fun p _ => ?_
      have := Finset.le_sup (f := fun q : Fin 896 => if q.val < 784 then f q else ⊥)
          (Finset.mem_univ (⟨p.val, by have := p.isLt; omega⟩ : Fin 896))
      simpa [p.isLt] using this
  unfold poolPad pool
  rw [zero_add, hsum, hmax]

/-- The pooled statistic of a real fibre is real: a sum of reals times the real κ, plus the maximum over the
    non-empty set of positions, which is one of the values. -/
theorem pool_real (f : Fin 784 → EReal) (hf : ∀ p, ∃ r : ℝ, f p = (r : EReal)) :
    ∃ r : ℝ, pool f = (r : EReal) := by
  choose fr hfr using hf
  obtain ⟨k, hk⟩ := invHW_real
  obtain ⟨i, -, hi⟩ := Finset.exists_mem_eq_sup (Finset.univ : Finset (Fin 784)) ⟨0, Finset.mem_univ _⟩ f
  have hfold : Finset.univ.fold max ⊥ f = (fr i : EReal) := by
    rw [← hfr i, ← hi]; rfl
  refine ⟨(∑ p, fr p) * k + fr i, ?_⟩
  unfold pool
  rw [hfold, hk, EReal.coe_add, EReal.coe_mul, coe_finset_sum]
  simp only [hfr]

/-- The gain is real when gamma is real and the running variance is a non-negative real: the variance plus ε is
    positive, so its square root is a positive real and the quotient is a product with a real reciprocal. -/
theorem gain_real (gamma rv : FVec Ideal SV .f32) (hgamma : ∀ i, ∃ r : ℝ, gamma i = (r : EReal))
    (hrv : ∀ i, ∃ r : ℝ, rv i = (r : EReal) ∧ 0 ≤ r) (j : Fin 512) :
    ∃ r : ℝ, gain gamma rv j = (r : EReal) := by
  obtain ⟨gm, hgm⟩ := hgamma (ix1 j)
  obtain ⟨v, hv, hv0⟩ := hrv (ix1 j)
  obtain ⟨e, he0, he⟩ := bnEps_pos
  have hpos : 0 < v + e := by linarith
  have hs : 0 < Real.sqrt (v + e) := Real.sqrt_pos.2 hpos
  refine ⟨gm * (1 / Real.sqrt (v + e)), ?_⟩
  unfold gain
  rw [hgm, hv, he, ← EReal.coe_add, Ideal.sqrt_coe, if_neg (not_lt.2 hpos.le), Ideal.div_coe hs.ne', EReal.coe_mul]

/-- With real pooled values, real weights and a real gain, multiplying the contracted sum by the gain is contracting
    against the weights that carry the gain (distributivity in the reals). -/
theorem hidK_eq_hidR (s : Fin 256 → EReal) (w1 : Fin 512 → Fin 256 → EReal) (g cc : Fin 512 → EReal)
    (hs : ∀ c, ∃ r : ℝ, s c = (r : EReal)) (hw : ∀ j c, ∃ r : ℝ, w1 j c = (r : EReal))
    (hg : ∀ j, ∃ r : ℝ, g j = (r : EReal)) : hidK s w1 g cc = hidR s w1 g cc := by
  funext j
  choose sr hsr using hs
  choose wr hwr using hw
  choose gr hgr using hg
  have key : (∑ c : Fin 256, s c * w1 j c) * g j = ∑ c : Fin 256, (w1 j c * g j) * s c := by
    simp only [hsr, hwr, hgr, ← EReal.coe_mul, ← coe_finset_sum]
    congr 1
    rw [Finset.sum_mul]
    exact Finset.sum_congr rfl fun c _ => by ring
  unfold hidK hidR hidR0
  rw [key]

/-- With real inputs, real weights, a real gamma and a real non-negative running variance the two arrangements of the
    hidden layer give one channel scale. -/
theorem scaleK_eq_scaleR (E : Fin 16 → Fin 256 → EReal) (x : FVec Ideal SX .f32) (w1 : FVec Ideal SW1 .f32)
    (b1 gamma beta rm rv : FVec Ideal SV .f32) (w2 : FVec Ideal SW2 .f32) (b2 : FVec Ideal SB .f32)
    (hx : ∀ i, ∃ r : ℝ, x i = (r : EReal)) (hw1 : ∀ i, ∃ r : ℝ, w1 i = (r : EReal))
    (hgamma : ∀ i, ∃ r : ℝ, gamma i = (r : EReal)) (hrv : ∀ i, ∃ r : ℝ, rv i = (r : EReal) ∧ 0 ≤ r)
    (b : Fin 128) (ch : Fin 256) :
    scaleK E x w1 b1 gamma beta rm rv w2 b2 b ch = scaleR E x w1 b1 gamma beta rm rv w2 b2 b ch := by
  have h := hidK_eq_hidR (fun c => pool (fibre x b c)) (fun j c => w1 (ix2 j c)) (gain gamma rv)
    (shift gamma rv b1 rm beta) (fun c => pool_real _ fun p => hx _) (fun j c => hw1 _)
    (gain_real gamma rv hgamma hrv)
  unfold scaleK scaleR
  rw [h]

theorem outK_eq_outR (E : Fin 16 → Fin 256 → EReal) (x : FVec Ideal SX .f32) (w1 : FVec Ideal SW1 .f32)
    (b1 gamma beta rm rv : FVec Ideal SV .f32) (w2 : FVec Ideal SW2 .f32) (b2 : FVec Ideal SB .f32)
    (hx : ∀ i, ∃ r : ℝ, x i = (r : EReal)) (hw1 : ∀ i, ∃ r : ℝ, w1 i = (r : EReal))
    (hgamma : ∀ i, ∃ r : ℝ, gamma i = (r : EReal)) (hrv : ∀ i, ∃ r : ℝ, rv i = (r : EReal) ∧ 0 ≤ r) :
    outK E x w1 b1 gamma beta rm rv w2 b2 = outR E x w1 b1 gamma beta rm rv w2 b2 :=
  funext fun i => congrArg (fun t => x i * t)
    (scaleK_eq_scaleR E x w1 b1 gamma beta rm rv w2 b2 hx hw1 hgamma hrv (i 0) (i 1))

end Cert.GroupAtt

end
-- ==== Proof.Pre.lean ====
/-
  What the precondition says of the argument arrays: every entry of x, of w1 and of gamma is a real number, and every
  entry of the running variance is a non-negative real number.
-/
import proofs.«148205_g2000704464797211_pallasbulk_780_16_alg».proof.Pre_finite_inputs
import proofs.«148205_g2000704464797211_pallasbulk_780_16_alg».proof.Proof.Spec
import Idealize.ShloMosaic.Lib.ReduceAll

noncomputable section

namespace Cert.GroupAtt

open Idealize.ShloMosaic Idealize.ShloMosaic.ValueIdx
open Cert.Pre_finite_inputs (S_)

namespace Pre

/-- The rank-0 shape has one index. -/
instance : Subsingleton S_.Idx := ⟨fun a b => funext fun d => d.elim0⟩

/-- The word 0x7F800000 denotes +∞. -/
theorem ofBits_inf : Ideal.ofBits .f32 0x7F800000#32 = (⊤ : EReal) := by simp [Ideal.ofBits, Ideal.ieee]

/-- A truth value printed as a one-bit word is 1 exactly when it is true. -/
theorem ofBool_eq_one (b : Bool) : BitVec.ofBool b = 1#1 ↔ b = true := by cases b <;> decide

/-- An extended real whose absolute value is below +∞ is a real number. -/
theorem real_of_abs_lt_top (a : EReal)
    (e : Ideal.cmp .olt (max a (-a)) (Ideal.ofBits .f32 0x7F800000#32) = 1#1) : ∃ r : ℝ, a = (r : EReal) := by
  rw [ofBits_inf] at e
  induction a using EReal.rec with
  | bot => simp [Ideal.cmp] at e
  | top => simp [Ideal.cmp] at e
  | coe r => exact ⟨r, rfl⟩

/-- A real number that compares at least 0 is non-negative. -/
theorem nonneg_of_ge_zero (a : EReal) (ha : ∃ r : ℝ, a = (r : EReal))
    (e : Ideal.cmp .oge a (Ideal.ofBits .f32 0x00000000#32) = 1#1) : ∃ r : ℝ, a = (r : EReal) ∧ 0 ≤ r := by
  obtain ⟨r, rfl⟩ := ha
  rw [Ideal.ofBits_zero_f32] at e
  unfold Ideal.cmp at e
  rw [ofBool_eq_one] at e
  exact ⟨r, rfl, EReal.coe_nonneg.1 (of_decide_eq_true e)⟩

/-- The conjunction of two rank-0 truth words is 1 only if both are. -/
theorem andi_ix0 (a b : IVec S_ 1) (e : andi a b ix0 = 1#1) : a ix0 = 1#1 ∧ b ix0 = 1#1 := IntOp.andi_eq_one.1 e

/-- If every entry of an array compares below +∞ in absolute value, every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) :=
  real_of_abs_lt_top (x i) (Host.reduce_andi_all _ _ hr hu ix0 e i)

/-- If moreover every entry compares at least 0, every entry is a non-negative real number. -/
theorem all_nonneg {s : Shape} {axes : List (Fin s.rank)} (x : FVec Ideal s .f32) (hx : ∀ i, ∃ r : ℝ, x i = (r : EReal))
    (hb : S_.BroadcastsInDim s (![] : Fin 0 → Fin s.rank)) (hr : s.ReducesTo axes S_) (hu : 0 < S_.numel)
    (e : Host.reduce IntOp.andi
        (cmpf .oge x (broadcastInDim s ![] hb (constant (F := Ideal) S_ .f32 0x00000000#32)))
        (constantI S_ 1 1#1) hr hu ix0 = 1#1) (i : s.Idx) : ∃ r : ℝ, x i = (r : EReal) ∧ 0 ≤ r :=
  nonneg_of_ge_zero (x i) (hx i) (Host.reduce_andi_all _ _ hr hu ix0 e i)

end Pre

open Pre in
theorem decode [Cert.Pre_finite_inputs.Facts] (x : FVec Ideal SX .f32) (w1 : FVec Ideal SW1 .f32)
    (b1 gamma beta rm rv : FVec Ideal SV .f32) (w2 : FVec Ideal SW2 .f32) (b2 : FVec Ideal SB .f32)
    (h : Cert.Pre_finite_inputs.fn (F := Ideal) x w1 b1 gamma beta rm rv w2 b2 = fun _ => 1#1) :
    (∀ i, ∃ r : ℝ, x i = (r : EReal)) ∧ (∀ i, ∃ r : ℝ, w1 i = (r : EReal))
      ∧ (∀ i, ∃ r : ℝ, gamma i = (r : EReal)) ∧ (∀ i, ∃ r : ℝ, rv i = (r : EReal) ∧ 0 ≤ r) := by
  have h0 := congrFun h ValueIdx.ix0
  dsimp only [Cert.Pre_finite_inputs.fn, Cert.Pre_finite_inputs.fn_part1, Cert.Pre_finite_inputs.fn_part2] at h0
  obtain ⟨h0, hrv0⟩ := andi_ix0 _ _ h0
  obtain ⟨h0, _⟩ := andi_ix0 _ _ h0
  obtain ⟨h0, _⟩ := andi_ix0 _ _ h0
  obtain ⟨h0, hrv⟩ := andi_ix0 _ _ h0
  obtain ⟨h0, _⟩ := andi_ix0 _ _ h0
  obtain ⟨h0, _⟩ := andi_ix0 _ _ h0
  obtain ⟨h0, hgamma⟩ := andi_ix0 _ _ h0
  obtain ⟨h0, _⟩ := andi_ix0 _ _ h0
  obtain ⟨hx, hw1⟩ := andi_ix0 _ _ h0
  exact ⟨all_real x _ _ _ hx, all_real w1 _ _ _ hw1, all_real gamma _ _ _ hgamma,
    all_nonneg rv (all_real rv _ _ _ hrv) _ _ _ hrv0⟩

end Cert.GroupAtt

end
-- ==== Proof.Mask.lean ====
/-
  The group-membership matrix. Both programs build it on the host from two iotas: channel ch belongs to group
  ⌊ch / 16⌋, and the entry is 1 where the group's number equals that quotient, else 0 — one program as a [16, 256]
  array (groups by channels), the other as its [256, 16] transpose. The entries agree because equality of two words
  does not depend on their order.
-/
import proofs.«148205_g2000704464797211_pallasbulk_780_16_alg».proof.Proof.Gen.KernelIdeal.Frame
import proofs.«148205_g2000704464797211_pallasbulk_780_16_alg».proof.Proof.Gen.ReferenceIdeal.Frame
import proofs.«148205_g2000704464797211_pallasbulk_780_16_alg».proof.Proof.Spec
import Idealize.ShloMosaic.Lib.StableHlo.Run

noncomputable section

namespace Cert.GroupAtt.Mask

open Idealize.ShloMosaic Idealize.ShloMosaic.ValueIdx Idealize.SL.Sem

/-- The sign word of a signed 32-bit word: 0, −1 or 1. -/
def sgnw (x : BitVec 32) : BitVec 32 := if x = 0 then 0 else if x.msb then -1 else 1

/-- Floor division of a signed 32-bit word by sixteen, as both programs compute it: the quotient rounded toward zero,
    less one where the signs of dividend and divisor differ and the remainder is not zero. -/
def fdiv16 (x : BitVec 32) : BitVec 32 :=
  Scalar.select
    (IntOp.andi (IntOp.cmpi .ne (sgnw x) (sgnw 16#32)) (IntOp.cmpi .ne (IntOp.remsi .host x 16#32) 0#32))
    (IntOp.subi (IntOp.divsi .host x 16#32) 1#32)
    (IntOp.divsi .host x 16#32)

/-- Floor division of an array of signed words, element by element, by a divisor given as its splat `d`, the splat
    `sd` of its sign word, and the splats `z`, `o` of zero and one. -/
def fdivV {s : Shape} (x d sd z o : IVec s 32) : IVec s 32 :=
  select (andi (cmpi .ne (signi x) sd) (cmpi .ne (Host.remsi x d) z)) (subi (Host.divsi x d) o) (Host.divsi x d)

section Kern
open Cert.KernelIdeal Cert.KernelIdeal.Facts₀

/-- The [16, 256] membership array (groups by channels). -/
def EtArr : FVec Ideal Cert.KernelIdeal.S16x256 .f32 :=
  uitofp .f32 (cmpi .eq
    (broadcastInDim S16x256 ![0, 1] bcast_S16x1_S16x256_0_1 (broadcastInDim S16x1 ![0] bcast_S16_S16x1_0 (iotaInDim S16 32 0)))
    (broadcastInDim S16x256 ![0, 1] bcast_S1x256_S16x256_0_1
      (fdivV (broadcastInDim S1x256 ![1] bcast_S256_S1x256_1 (iotaInDim S256 32 0))
        (broadcastInDim S1x256 ![] bcast_S_S1x256 (id (constantI S_ 32 16#32)))
        (broadcastInDim S1x256 ![] bcast_S_S1x256 (signi (id (constantI S_ 32 16#32))))
        (broadcastInDim S1x256 ![] bcast_S_S1x256 (constantI S_ 32 0#32))
        (broadcastInDim S1x256 ![] bcast_S_S1x256 (constantI S_ 32 1#32)))))

/-- An entry of the [16, 256] array: one where the group's number is the channel's quotient by sixteen. -/
theorem EtArr_ix (k : Fin 16) (ch : Fin 256) :
    EtArr (ix2 k ch)
      = FloatOps.uitofp (F := Ideal) .f32 (IntOp.cmpi .eq (BitVec.ofNat 32 k.val) (fdiv16 (BitVec.ofNat 32 ch.val))) := by
  rfl

end Kern

section Ref
open Cert.ReferenceIdeal Cert.ReferenceIdeal.Facts₀

/-- The [256, 16] membership array (channels by groups). -/
def EArr : FVec Ideal Cert.ReferenceIdeal.S256x16 .f32 :=
  uitofp .f32 (cmpi .eq
    (broadcastInDim S256x16 ![0, 1] bcast_S256x1_S256x16_0_1
      (fdivV (broadcastInDim S256x1 ![0] bcast_S256_S256x1_0 (iotaInDim S256 32 0))
        (broadcastInDim S256x1 ![] bcast_S_S256x1 (id (constantI S_ 32 16#32)))
        (broadcastInDim S256x1 ![] bcast_S_S256x1 (signi (id (constantI S_ 32 16#32))))
        (broadcastInDim S256x1 ![] bcast_S_S256x1 (constantI S_ 32 0#32))
        (broadcastInDim S256x1 ![] bcast_S_S256x1 (constantI S_ 32 1#32))))
    (broadcastInDim S256x16 ![0, 1] bcast_S1x16_S256x16_0_1 (broadcastInDim S1x16 ![1] bcast_S16_S1x16_1 (iotaInDim S16 32 0))))

/-- An entry of the [256, 16] array: one where the channel's quotient by sixteen is the group's number. -/
theorem EArr_ix (ch : Fin 256) (k : Fin 16) :
    EArr (ix2 ch k)
      = FloatOps.uitofp (F := Ideal) .f32 (IntOp.cmpi .eq (fdiv16 (BitVec.ofNat 32 ch.val)) (BitVec.ofNat 32 k.val)) := by
  rfl

end Ref

/-- Equality of two words does not depend on their order. -/
theorem cmpi_eq_comm {w : Nat} (a b : BitVec w) : IntOp.cmpi .eq a b = IntOp.cmpi .eq b a := by
  unfold IntOp.cmpi
  congr 1
  exact Bool.beq_comm

/-- The two arrays are transposes of one another. -/
theorem EArr_apply (ch : Fin 256) (k : Fin 16) : EArr (ix2 ch k) = EtArr (ix2 k ch) := by
  rw [EArr_ix, EtArr_ix, cmpi_eq_comm]

set_option maxHeartbeats 1000000 in
/-- The first program's region is entered with its membership operand at `EtArr`. -/
theorem kern_mask (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v19 = EtArr := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil, List.cons_append, List.nil_append]
  after_results_simp
  rfl

set_option maxHeartbeats 1000000 in
/-- The second program's first region is entered with its membership operand at `EArr`. -/
theorem ref_mask (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD) :
    Cert.ReferenceIdeal.Gen.V4 m ρ c Cert.ReferenceIdeal.main_v20 = EArr := by
  show Cert.ReferenceIdeal.Gen.W4 m ρ c (Proc.devRef .tc Cert.ReferenceIdeal.main_v20) = _
  dsimp only [Cert.ReferenceIdeal.Gen.W4, Cert.ReferenceIdeal.Gen.W3, Cert.ReferenceIdeal.Gen.W2, Cert.ReferenceIdeal.Gen.W1]
  simp only [Cert.ReferenceIdeal.Gen.hostOps0, Cert.ReferenceIdeal.Gen.hostOps0_1, Cert.ReferenceIdeal.Gen.hostOps0_2, Cert.ReferenceIdeal.Gen.hostOps0_3]
  after_results_simp
  rfl

end Cert.GroupAtt.Mask

end
-- ==== Proof.KernPayload.lean ====
/-
  The fused body's stored value at an index of its [784, 16, 256] block: the block entry times the channel scale of
  its row (batch element within the tile) — pooling over the 784 leading positions, the hidden layer with the gain
  applied after the contraction, the logits, the softmax over groups and the expansion to channels.
-/
import proofs.«148205_g2000704464797211_pallasbulk_780_16_alg».proof.Proof.Gen.KernelIdeal.Skeleton
import proofs.«148205_g2000704464797211_pallasbulk_780_16_alg».proof.Proof.Spec
import proofs.«148205_g2000704464797211_pallasbulk_780_16_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.GroupAtt.Kern

open Idealize.ShloMosaic Idealize.ShloMosaic.ValueIdx Idealize.SL.Sem
open Cert.KernelIdeal Cert.KernelIdeal.Gen

/-! ## Layout operations at coordinates -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(p, i, j)`, the operand's one slab at `(i, j)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The reductions at coordinates -/

/-- The sum over the leading axis of a [784, 16, 256] block, at (r, c). -/
theorem sum_lead_apply (v : FVec Ideal S784x16x256 .f32) (r : Fin 16) (c : Fin 256) :
    multiReduction .add [0] S16x256 v 0x00000000#32 Facts₀.reduces_S784x16x256_S16x256 (.inl rfl) rfl (ix2 r c)
      = ∑ q : Fin 784, v (ix3 q r c) := by
  refine (Ideal.multiReduction_add_single v 0x00000000#32 Facts₀.reduces_S784x16x256_S16x256 (.inl rfl) rfl (ix2 r c)).trans ?_
  refine Finset.sum_congr rfl fun q _ => congrArg v (funext fun a => Fin.ext ?_)
  match a with
  | ⟨0, _⟩ => rfl
  | ⟨1, _⟩ => rfl
  | ⟨2, _⟩ => rfl

/-- The maximum over the leading axis of a [784, 16, 256] block, at (r, c). -/
theorem max_lead_apply (v : FVec Ideal S784x16x256 .f32) (r : Fin 16) (c : Fin 256) :
    multiReduction .maximumf [0] S16x256 v 0xFF800000#32 Facts₀.reduces_S784x16x256_S16x256 (.inl rfl) rfl (ix2 r c)
      = Finset.univ.fold max ⊥ (fun q : Fin 784 => v (ix3 q r c)) := by
  refine (Ideal.multiReduction_maximumf_single v 0xFF800000#32 Facts₀.reduces_S784x16x256_S16x256 (.inl rfl) rfl (ix2 r c)).trans ?_
  have e : (v ∘ Facts₀.reduces_S784x16x256_S16x256.lift (ix2 r c)) = fun q : Fin 784 => v (ix3 q r c) :=
    funext fun q => congrArg v (funext fun a => Fin.ext (by
      match a with
      | ⟨0, _⟩ => rfl
      | ⟨1, _⟩ => rfl
      | ⟨2, _⟩ => rfl))
  exact congrArg₂ (fun b f => Finset.fold max b f (Finset.univ : Finset (Fin 784))) ofBits_negInf e

/-- The sum along a row of a [16, 16] block, at r. -/
theorem sum_row_apply (v : FVec Ideal S16x16 .f32) (r : Fin 16) :
    multiReduction .add [1] S16 v 0x00000000#32 Facts₀.reduces_S16x16_S16 (.inl rfl) rfl (ix1 r)
      = ∑ k : Fin 16, v (ix2 r k) := by
  refine (Ideal.multiReduction_add_single v 0x00000000#32 Facts₀.reduces_S16x16_S16 (.inl rfl) rfl (ix1 r)).trans ?_
  refine Finset.sum_congr rfl fun q _ => congrArg v (funext fun a => Fin.ext ?_)
  match a with
  | ⟨0, _⟩ => rfl
  | ⟨1, _⟩ => rfl

/-- The maximum along a row of a [16, 16] block, at r. -/
theorem max_row_apply (v : FVec Ideal S16x16 .f32) (r : Fin 16) :
    multiReduction .maximumf [1] S16 v 0xFF800000#32 Facts₀.reduces_S16x16_S16 (.inl rfl) rfl (ix1 r)
      = Finset.univ.fold max ⊥ (fun k : Fin 16 => v (ix2 r k)) := by
  refine (Ideal.multiReduction_maximumf_single v 0xFF800000#32 Facts₀.reduces_S16x16_S16 (.inl rfl) rfl (ix1 r)).trans ?_
  have e : (v ∘ Facts₀.reduces_S16x16_S16.lift (ix1 r)) = fun k : Fin 16 => v (ix2 r k) :=
    funext fun q => congrArg v (funext fun a => Fin.ext (by
      match a with
      | ⟨0, _⟩ => rfl
      | ⟨1, _⟩ => rfl))
  exact congrArg₂ (fun b f => Finset.fold max b f (Finset.univ : Finset (Fin 16))) ofBits_negInf e

/-! ## The three contractions at coordinates -/

/-- The left operand's row is the result's row. -/
theorem lhs_mmHid_0 (i : S16x512.Idx) (q : dot_S16x256_S512x256_S16x512_1_1_0_0_n_n.contr.Idx) : (dot_S16x256_S512x256_S16x512_1_1_0_0_n_n.lhsIdx i q 0).val = (i 0).val := by
  unfold DotDims.lhsIdx
  rw [dif_neg (show ¬(0 : Fin S16x256.rank) ∈ dot_S16x256_S512x256_S16x512_1_1_0_0_n_n.lhsBatch by decide), dif_pos (show (0 : Fin S16x256.rank) ∈ dot_S16x256_S512x256_S16x512_1_1_0_0_n_n.lhsNonContracting by decide)]
  rfl
/-- The left operand's column is the contraction position. -/
theorem lhs_mmHid_1 (i : S16x512.Idx) (q : dot_S16x256_S512x256_S16x512_1_1_0_0_n_n.contr.Idx) : (dot_S16x256_S512x256_S16x512_1_1_0_0_n_n.lhsIdx i q 1).val = (q ⟨0, by decide⟩).val :=
  dot_S16x256_S512x256_S16x512_1_1_0_0_n_n.lhsIdx_val_of_single rfl i q
/-- The right operand's free axis is the result's column. -/
theorem rhs_mmHid_0 (i : S16x512.Idx) (q : dot_S16x256_S512x256_S16x512_1_1_0_0_n_n.contr.Idx) : (dot_S16x256_S512x256_S16x512_1_1_0_0_n_n.rhsIdx i q 0).val = (i 1).val := by
  unfold DotDims.rhsIdx
  rw [dif_neg (show ¬(0 : Fin S512x256.rank) ∈ dot_S16x256_S512x256_S16x512_1_1_0_0_n_n.rhsBatch by decide), dif_pos (show (0 : Fin S512x256.rank) ∈ dot_S16x256_S512x256_S16x512_1_1_0_0_n_n.rhsNonContracting by decide)]
  rfl
/-- The right operand's contracted axis is the contraction position. -/
theorem rhs_mmHid_1 (i : S16x512.Idx) (q : dot_S16x256_S512x256_S16x512_1_1_0_0_n_n.contr.Idx) : (dot_S16x256_S512x256_S16x512_1_1_0_0_n_n.rhsIdx i q 1).val = (q ⟨0, by decide⟩).val :=
  dot_S16x256_S512x256_S16x512_1_1_0_0_n_n.rhsIdx_val_of_single rfl i q
/-- The contraction of the pooled block with the first weights: entry (r, j) sums over the 256 channels. -/
theorem mmHid_apply (l : FVec Ideal S16x256 .f32) (w : FVec Ideal S512x256 .f32) (r : Fin 16) (j : Fin 512) :
    matmul dot_S16x256_S512x256_S16x512_1_1_0_0_n_n none l w (constant (F := Ideal) S16x512 .f32 0x00000000#32) (ix2 r j)
      = ∑ k : Fin 256, l (ix2 r k) * w (ix2 j k) := by
  refine (Ideal.matmul_constant_zero_apply dot_S16x256_S512x256_S16x512_1_1_0_0_n_n none l w (ix2 r j)).trans ?_
  rw [← Equiv.sum_comp (contrEquiv1 dot_S16x256_S512x256_S16x512_1_1_0_0_n_n 256 rfl rfl).symm]
  refine Finset.sum_congr rfl fun k _ => ?_
  have hk := contrEquiv1_symm_val dot_S16x256_S512x256_S16x512_1_1_0_0_n_n 256 rfl rfl k
  have el : dot_S16x256_S512x256_S16x512_1_1_0_0_n_n.lhsIdx (ix2 r j) ((contrEquiv1 dot_S16x256_S512x256_S16x512_1_1_0_0_n_n 256 rfl rfl).symm k) = ix2 r k := funext fun a => Fin.ext (by
    match a with
    | ⟨0, _⟩ => exact lhs_mmHid_0 _ _
    | ⟨1, _⟩ => exact (lhs_mmHid_1 _ _).trans hk)
  have er : dot_S16x256_S512x256_S16x512_1_1_0_0_n_n.rhsIdx (ix2 r j) ((contrEquiv1 dot_S16x256_S512x256_S16x512_1_1_0_0_n_n 256 rfl rfl).symm k) = ix2 j k := funext fun a => Fin.ext (by
    match a with
    | ⟨0, _⟩ => exact rhs_mmHid_0 _ _
    | ⟨1, _⟩ => exact (rhs_mmHid_1 _ _).trans hk)
  rw [el, er]

/-- The left operand's row is the result's row. -/
theorem lhs_mmLog_0 (i : S16x16.Idx) (q : dot_S16x512_S16x512_S16x16_1_1_0_0_n_n.contr.Idx) : (dot_S16x512_S16x512_S16x16_1_1_0_0_n_n.lhsIdx i q 0).val = (i 0).val := by
  unfold DotDims.lhsIdx
  rw [dif_neg (show ¬(0 : Fin S16x512.rank) ∈ dot_S16x512_S16x512_S16x16_1_1_0_0_n_n.lhsBatch by decide), dif_pos (show (0 : Fin S16x512.rank) ∈ dot_S16x512_S16x512_S16x16_1_1_0_0_n_n.lhsNonContracting by decide)]
  rfl
/-- The left operand's column is the contraction position. -/
theorem lhs_mmLog_1 (i : S16x16.Idx) (q : dot_S16x512_S16x512_S16x16_1_1_0_0_n_n.contr.Idx) : (dot_S16x512_S16x512_S16x16_1_1_0_0_n_n.lhsIdx i q 1).val = (q ⟨0, by decide⟩).val :=
  dot_S16x512_S16x512_S16x16_1_1_0_0_n_n.lhsIdx_val_of_single rfl i q
/-- The right operand's free axis is the result's column. -/
theorem rhs_mmLog_0 (i : S16x16.Idx) (q : dot_S16x512_S16x512_S16x16_1_1_0_0_n_n.contr.Idx) : (dot_S16x512_S16x512_S16x16_1_1_0_0_n_n.rhsIdx i q 0).val = (i 1).val := by
  unfold DotDims.rhsIdx
  rw [dif_neg (show ¬(0 : Fin S16x512.rank) ∈ dot_S16x512_S16x512_S16x16_1_1_0_0_n_n.rhsBatch by decide), dif_pos (show (0 : Fin S16x512.rank) ∈ dot_S16x512_S16x512_S16x16_1_1_0_0_n_n.rhsNonContracting by decide)]
  rfl
/-- The right operand's contracted axis is the contraction position. -/
theorem rhs_mmLog_1 (i : S16x16.Idx) (q : dot_S16x512_S16x512_S16x16_1_1_0_0_n_n.contr.Idx) : (dot_S16x512_S16x512_S16x16_1_1_0_0_n_n.rhsIdx i q 1).val = (q ⟨0, by decide⟩).val :=
  dot_S16x512_S16x512_S16x16_1_1_0_0_n_n.rhsIdx_val_of_single rfl i q
/-- The contraction of the hidden block with the second weights: entry (r, k) sums over the 512 hidden units. -/
theorem mmLog_apply (l : FVec Ideal S16x512 .f32) (w : FVec Ideal S16x512 .f32) (r : Fin 16) (j : Fin 16) :
    matmul dot_S16x512_S16x512_S16x16_1_1_0_0_n_n none l w (constant (F := Ideal) S16x16 .f32 0x00000000#32) (ix2 r j)
      = ∑ k : Fin 512, l (ix2 r k) * w (ix2 j k) := by
  refine (Ideal.matmul_constant_zero_apply dot_S16x512_S16x512_S16x16_1_1_0_0_n_n none l w (ix2 r j)).trans ?_
  rw [← Equiv.sum_comp (contrEquiv1 dot_S16x512_S16x512_S16x16_1_1_0_0_n_n 512 rfl rfl).symm]
  refine Finset.sum_congr rfl fun k _ => ?_
  have hk := contrEquiv1_symm_val dot_S16x512_S16x512_S16x16_1_1_0_0_n_n 512 rfl rfl k
  have el : dot_S16x512_S16x512_S16x16_1_1_0_0_n_n.lhsIdx (ix2 r j) ((contrEquiv1 dot_S16x512_S16x512_S16x16_1_1_0_0_n_n 512 rfl rfl).symm k) = ix2 r k := funext fun a => Fin.ext (by
    match a with
    | ⟨0, _⟩ => exact lhs_mmLog_0 _ _
    | ⟨1, _⟩ => exact (lhs_mmLog_1 _ _).trans hk)
  have er : dot_S16x512_S16x512_S16x16_1_1_0_0_n_n.rhsIdx (ix2 r j) ((contrEquiv1 dot_S16x512_S16x512_S16x16_1_1_0_0_n_n 512 rfl rfl).symm k) = ix2 j k := funext fun a => Fin.ext (by
    match a with
    | ⟨0, _⟩ => exact rhs_mmLog_0 _ _
    | ⟨1, _⟩ => exact (rhs_mmLog_1 _ _).trans hk)
  rw [el, er]

/-- The left operand's row is the result's row. -/
theorem lhs_mmExp_0 (i : S16x256.Idx) (q : dot_S16x16_S16x256_S16x256_1_0_0_1_n_n.contr.Idx) : (dot_S16x16_S16x256_S16x256_1_0_0_1_n_n.lhsIdx i q 0).val = (i 0).val := by
  unfold DotDims.lhsIdx
  rw [dif_neg (show ¬(0 : Fin S16x16.rank) ∈ dot_S16x16_S16x256_S16x256_1_0_0_1_n_n.lhsBatch by decide), dif_pos (show (0 : Fin S16x16.rank) ∈ dot_S16x16_S16x256_S16x256_1_0_0_1_n_n.lhsNonContracting by decide)]
  rfl
/-- The left operand's column is the contraction position. -/
theorem lhs_mmExp_1 (i : S16x256.Idx) (q : dot_S16x16_S16x256_S16x256_1_0_0_1_n_n.contr.Idx) : (dot_S16x16_S16x256_S16x256_1_0_0_1_n_n.lhsIdx i q 1).val = (q ⟨0, by decide⟩).val :=
  dot_S16x16_S16x256_S16x256_1_0_0_1_n_n.lhsIdx_val_of_single rfl i q
/-- The right operand's contracted axis is the contraction position. -/
theorem rhs_mmExp_0 (i : S16x256.Idx) (q : dot_S16x16_S16x256_S16x256_1_0_0_1_n_n.contr.Idx) : (dot_S16x16_S16x256_S16x256_1_0_0_1_n_n.rhsIdx i q 0).val = (q ⟨0, by decide⟩).val :=
  dot_S16x16_S16x256_S16x256_1_0_0_1_n_n.rhsIdx_val_of_single rfl i q
/-- The right operand's free axis is the result's column. -/
theorem rhs_mmExp_1 (i : S16x256.Idx) (q : dot_S16x16_S16x256_S16x256_1_0_0_1_n_n.contr.Idx) : (dot_S16x16_S16x256_S16x256_1_0_0_1_n_n.rhsIdx i q 1).val = (i 1).val := by
  unfold DotDims.rhsIdx
  rw [dif_neg (show ¬(1 : Fin S16x256.rank) ∈ dot_S16x16_S16x256_S16x256_1_0_0_1_n_n.rhsBatch by decide), dif_pos (show (1 : Fin S16x256.rank) ∈ dot_S16x16_S16x256_S16x256_1_0_0_1_n_n.rhsNonContracting by decide)]
  rfl
/-- The expansion of the group weights through the membership matrix: entry (r, ch) sums over the 16 groups. -/
theorem mmExp_apply (l : FVec Ideal S16x16 .f32) (w : FVec Ideal S16x256 .f32) (r : Fin 16) (j : Fin 256) :
    matmul dot_S16x16_S16x256_S16x256_1_0_0_1_n_n none l w (constant (F := Ideal) S16x256 .f32 0x00000000#32) (ix2 r j)
      = ∑ k : Fin 16, l (ix2 r k) * w (ix2 k j) := by
  refine (Ideal.matmul_constant_zero_apply dot_S16x16_S16x256_S16x256_1_0_0_1_n_n none l w (ix2 r j)).trans ?_
  rw [← Equiv.sum_comp (contrEquiv1 dot_S16x16_S16x256_S16x256_1_0_0_1_n_n 16 rfl rfl).symm]
  refine Finset.sum_congr rfl fun k _ => ?_
  have hk := contrEquiv1_symm_val dot_S16x16_S16x256_S16x256_1_0_0_1_n_n 16 rfl rfl k
  have el : dot_S16x16_S16x256_S16x256_1_0_0_1_n_n.lhsIdx (ix2 r j) ((contrEquiv1 dot_S16x16_S16x256_S16x256_1_0_0_1_n_n 16 rfl rfl).symm k) = ix2 r k := funext fun a => Fin.ext (by
    match a with
    | ⟨0, _⟩ => exact lhs_mmExp_0 _ _
    | ⟨1, _⟩ => exact (lhs_mmExp_1 _ _).trans hk)
  have er : dot_S16x16_S16x256_S16x256_1_0_0_1_n_n.rhsIdx (ix2 r j) ((contrEquiv1 dot_S16x16_S16x256_S16x256_1_0_0_1_n_n 16 rfl rfl).symm k) = ix2 k j := funext fun a => Fin.ext (by
    match a with
    | ⟨0, _⟩ => exact (rhs_mmExp_0 _ _).trans hk
    | ⟨1, _⟩ => exact rhs_mmExp_1 _ _)
  rw [el, er]

/-! ## The stages of the body, as blocks -/

/-- The pooled block: per (row, channel) the sum over the 784 leading positions times κ, plus their maximum. -/
def pooledV (v : FVec Ideal S784x16x256 .f32) : FVec Ideal S16x256 .f32 :=
  addf (mulf (multiReduction .add [0] S16x256 v 0x00000000#32 Facts₀.reduces_S784x16x256_S16x256 (.inl rfl) rfl)
      (broadcast S16x256 (Scalar.ofBits .f32 0x3AA72F05#32 : Ideal .f32)))
    (multiReduction .maximumf [0] S16x256 v 0xFF800000#32 Facts₀.reduces_S784x16x256_S16x256 (.inl rfl) rfl)

/-- The hidden block: the pooled block contracted with the first weights, times the gain row, plus the offset row,
    clamped below at zero. -/
def hiddenV (s : FVec Ideal S16x256 .f32) (w1 : FVec Ideal S512x256 .f32) (g cc : FVec Ideal S1x512 .f32) :
    FVec Ideal S16x512 .f32 :=
  maximumf
    (addf
      (mulf (matmul dot_S16x256_S512x256_S16x512_1_1_0_0_n_n none s w1 (constant (F := Ideal) S16x512 .f32 0x00000000#32))
        (broadcastTo S16x512 (shapeCast S1x512 g Facts₀.shapeCasts_S1x512_S1x512) Facts₀.broadcasts_S1x512_S16x512))
      (broadcastTo S16x512 (shapeCast S1x512 cc Facts₀.shapeCasts_S1x512_S1x512) Facts₀.broadcasts_S1x512_S16x512))
    (broadcast S16x512 (Scalar.ofBits .f32 0x00000000#32 : Ideal .f32))

/-- The logit block: the hidden block contracted with the second weights, plus the bias row. -/
def logitV (h : FVec Ideal S16x512 .f32) (w2 : FVec Ideal S16x512 .f32) (b2 : FVec Ideal S1x16 .f32) :
    FVec Ideal S16x16 .f32 :=
  addf (matmul dot_S16x512_S16x512_S16x16_1_1_0_0_n_n none h w2 (constant (F := Ideal) S16x16 .f32 0x00000000#32))
    (broadcastTo S16x16 (shapeCast S1x16 b2 Facts₀.shapeCasts_S1x16_S1x16) Facts₀.broadcasts_S1x16_S16x16)

/-- A statistic per row spread back over the row: [16] viewed [16, 1], then repeated along the 16 columns. -/
def spread (v : FVec Ideal S16 .f32) : FVec Ideal S16x16 .f32 :=
  broadcastTo S16x16 (shapeCast S16x1 v Facts₀.shapeCasts_S16_S16x1) Facts₀.broadcasts_S16x1_S16x16

/-- The exponentials of the logits shifted by their row's maximum. -/
def expV (l : FVec Ideal S16x16 .f32) : FVec Ideal S16x16 .f32 :=
  exp (subf l (spread (multiReduction .maximumf [1] S16 l 0xFF800000#32 Facts₀.reduces_S16x16_S16 (.inl rfl) rfl)))

/-- The softmax block: each shifted exponential over its row's sum of them. -/
def softV (l : FVec Ideal S16x16 .f32) : FVec Ideal S16x16 .f32 :=
  divf (expV l) (spread (multiReduction .add [1] S16 (expV l) 0x00000000#32 Facts₀.reduces_S16x16_S16 (.inl rfl) rfl))

/-- The pooled block at (r, c) is the pooled statistic of that row's and channel's 784 entries. -/
theorem pooledV_apply (v : FVec Ideal S784x16x256 .f32) (r : Fin 16) (c : Fin 256) :
    pooledV v (ix2 r c) = pool (fun q => v (ix3 q r c)) := by
  unfold pooledV
  rw [addf_apply, mulf_apply, broadcast_apply, sum_lead_apply, max_lead_apply]
  rfl

/-- The hidden block at (r, j) is hidden unit j of row r's pooled values. -/
theorem hiddenV_apply (s : FVec Ideal S16x256 .f32) (w1 : FVec Ideal S512x256 .f32) (g cc : FVec Ideal S1x512 .f32)
    (r : Fin 16) (j : Fin 512) :
    hiddenV s w1 g cc (ix2 r j)
      = hidK (fun c => s (ix2 r c)) (fun j c => w1 (ix2 j c)) (fun j => g (ix2 (0 : Fin 1) j))
          (fun j => cc (ix2 (0 : Fin 1) j)) j := by
  unfold hiddenV
  rw [maximumf_apply, addf_apply, mulf_apply, broadcast_apply, mmHid_apply, shapeCast_self, shapeCast_self,
    broadcastTo_1b_ab_apply, broadcastTo_1b_ab_apply]
  show max (_ * _ + _) (Ideal.ofBits .f32 0x00000000#32) = _
  rw [Ideal.ofBits_zero_f32]
  rfl

/-- The logit block at (r, k) is group logit k of row r's hidden units. -/
theorem logitV_apply (h : FVec Ideal S16x512 .f32) (w2 : FVec Ideal S16x512 .f32) (b2 : FVec Ideal S1x16 .f32)
    (r k : Fin 16) :
    logitV h w2 b2 (ix2 r k)
      = logit (fun j => h (ix2 r j)) (fun k j => w2 (ix2 k j)) (fun k => b2 (ix2 (0 : Fin 1) k)) k := by
  unfold logitV
  rw [addf_apply, mmLog_apply, shapeCast_self, broadcastTo_1b_ab_apply]
  rfl

/-- A spread statistic at (r, k) is the statistic of row r. -/
theorem spread_apply (v : FVec Ideal S16 .f32) (r k : Fin 16) : spread v (ix2 r k) = v (ix1 r) := by
  unfold spread
  rw [broadcastTo_a1_ab_apply, shapeCast_a_a1_apply]

/-- A shifted exponential at (r, k). -/
theorem expV_apply (l : FVec Ideal S16x16 .f32) (r k : Fin 16) :
    expV l (ix2 r k) = Ideal.exp (l (ix2 r k) - Finset.univ.fold max ⊥ (fun k' : Fin 16 => l (ix2 r k'))) := by
  unfold expV
  show Ideal.exp (subf l _ (ix2 r k)) = _
  rw [subf_apply, spread_apply, max_row_apply]

/-- The softmax block at (r, k) is the softmax of row r's logits at group k. -/
theorem softV_apply (l : FVec Ideal S16x16 .f32) (r k : Fin 16) :
    softV l (ix2 r k) = smax (fun k => l (ix2 r k)) k := by
  unfold softV
  rw [divf_apply, spread_apply, sum_row_apply, expV_apply]
  simp only [expV_apply]
  rfl

/-! ## The payloads as those stages, and the stored value at an index -/

/-- The first read value is the loaded block itself (a cast to its own shape). -/
theorem pay2_eq (x0 : FVec Ideal S784x16x256 .f32) : k0_pay2 (F := Ideal) x0 = x0 :=
  shapeCast_self x0 _

/-- The membership matrix is read as loaded (a cast to its own shape). -/
theorem pay4_eq (x6 : FVec Ideal S16x256 .f32) : k0_pay4 (F := Ideal) x6 = x6 :=
  shapeCast_self x6 _

/-- The group weights are the softmax block of the logit block of the hidden block of the pooled block. -/
theorem pay3_eq (x0 : FVec Ideal S784x16x256 .f32) (x1 : FVec Ideal S512x256 .f32) (x2 x3 : FVec Ideal S1x512 .f32)
    (x4 : FVec Ideal S16x512 .f32) (x5 : FVec Ideal S1x16 .f32) :
    k0_pay3 (F := Ideal) x0 x1 x2 x3 x4 x5 = softV (logitV (hiddenV (pooledV (k0_pay2 (F := Ideal) x0)) x1 x2 x3) x4 x5) :=
  rfl

/-- The group weights at (r, k): the softmax, at group k, of the logits of row r's hidden layer. -/
theorem pay3_apply (x0 : FVec Ideal S784x16x256 .f32) (x1 : FVec Ideal S512x256 .f32) (x2 x3 : FVec Ideal S1x512 .f32)
    (x4 : FVec Ideal S16x512 .f32) (x5 : FVec Ideal S1x16 .f32) (r k : Fin 16) :
    k0_pay3 (F := Ideal) x0 x1 x2 x3 x4 x5 (ix2 r k)
      = smax (logit (hidK (fun c => pool (fun q => x0 (ix3 q r c))) (fun j c => x1 (ix2 j c))
            (fun j => x2 (ix2 (0 : Fin 1) j)) (fun j => x3 (ix2 (0 : Fin 1) j)))
          (fun k j => x4 (ix2 k j)) (fun k => x5 (ix2 (0 : Fin 1) k))) k := by
  rw [pay3_eq, pay2_eq, softV_apply]
  simp only [logitV_apply, hiddenV_apply, pooledV_apply]

/-- The stored value at (p, r, ch): the first operand's entry times the expansion, through the third operand, of the
    second operand's row r. -/
theorem pay1_apply (v1 : FVec Ideal S784x16x256 .f32) (a : FVec Ideal S16x16 .f32) (E : FVec Ideal S16x256 .f32)
    (p : Fin 784) (r : Fin 16) (ch : Fin 256) :
    k0_pay1 (F := Ideal) v1 a E (ix3 p r ch) = v1 (ix3 p r ch) * ∑ k : Fin 16, a (ix2 r k) * E (ix2 k ch) := by
  show mulf v1 (broadcastTo S784x16x256 (shapeCast S1x16x256
      (matmul dot_S16x16_S16x256_S16x256_1_0_0_1_n_n none a E (constant (F := Ideal) S16x256 .f32 0x00000000#32))
      Facts₀.shapeCasts_S16x256_S1x16x256) Facts₀.broadcasts_S1x16x256_S784x16x256) (ix3 p r ch) = _
  rw [mulf_apply, broadcastTo_1bc_abc_apply, shapeCast_ab_1ab_apply, mmExp_apply]

/-- The stored value at (p, r, ch) of the block: the block's entry times the channel scale of row r. -/
theorem payload_apply (x0 : Vec Ideal S784x16x256 .f32) (x1 : Vec Ideal S512x256 .f32) (x2 x3 : Vec Ideal S1x512 .f32)
    (x4 : Vec Ideal S16x512 .f32) (x5 : Vec Ideal S1x16 .f32) (x6 : Vec Ideal S16x256 .f32)
    (p : Fin 784) (r : Fin 16) (ch : Fin 256) :
    k0_pay1 (F := Ideal) (k0_pay2 x0) (k0_pay3 x0 x1 x2 x3 x4 x5) (k0_pay4 x6) (ix3 p r ch)
      = x0 (ix3 p r ch)
        * attn (hidK (fun c => pool (fun q => x0 (ix3 q r c))) (fun j c => x1 (ix2 j c))
              (fun j => x2 (ix2 (0 : Fin 1) j)) (fun j => x3 (ix2 (0 : Fin 1) j)))
            (fun k j => x4 (ix2 k j)) (fun k => x5 (ix2 (0 : Fin 1) k)) (fun k c => x6 (ix2 k c)) ch := by
  rw [pay1_apply, pay2_eq, pay4_eq]
  simp only [pay3_apply]
  rfl

end Cert.GroupAtt.Kern

end
-- ==== Proof.KernValue.lean ====
/-
  The first program's result array: the eight grid points each write the block of sixteen batch elements
  [·, 16 t … 16 t + 15, ·] of a [784, 128, 256] array, the block entry at (p, r, ch) being x[16 t + r, ch, p] times the
  channel scale of batch element 16 t + r; the blocks tile the array; the two layout operations after the region
  carry entry (p, b, ch) to (b, ch, p / 28, p % 28).
-/
import proofs.«148205_g2000704464797211_pallasbulk_780_16_alg».proof.Proof.Gen.KernelIdeal.Frame
import proofs.«148205_g2000704464797211_pallasbulk_780_16_alg».proof.Proof.Spec
import proofs.«148205_g2000704464797211_pallasbulk_780_16_alg».proof.Proof.Algebra
import proofs.«148205_g2000704464797211_pallasbulk_780_16_alg».proof.Proof.Mask
import proofs.«148205_g2000704464797211_pallasbulk_780_16_alg».proof.Proof.KernPayload
import Idealize.ShloMosaic.Lib.ValueIdx
import Idealize.ShloMosaic.Lib.ValueLayout
import Idealize.ShloMosaic.Lib.Pipeline.Value
import Idealize.ShloMosaic.Lib.StableHlo.Run

noncomputable section

namespace Cert.GroupAtt.Kern

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- Window 0's array as the region finds it: x transposed to [28, 28, 128, 256] and recast to [784, 128, 256]. -/
theorem V_v21 (c : Dev nD) : (V m c main_v21 : S784x128x256.Idx → EReal) = shapeCast S784x128x256 (transpose S28x28x128x256 [2, 3, 0, 1] (m ((c.tc : Thread nD τ).loc main_arg0)) transposes_S128x256x28x28_S28x28x128x256_2_3_0_1) shapeCasts_S28x28x128x256_S784x128x256 := by
  dsimp only [Gen.V, Gen.V0]
  simp only [Gen.hostOps0, Gen.hostOps0_1, Gen.hostOps0_2, List.flatten_cons, List.flatten_nil, List.append_nil, List.cons_append, List.nil_append]
  after_results
  rfl

/-- Window 0's array at (p, b, ch) is x at (b, ch, p / 28, p % 28). -/
theorem v21_apply (c : Dev nD) (p : Fin 784) (b : Fin 128) (ch : Fin 256) :
    (V m c main_v21 : S784x128x256.Idx → EReal) (ix3 p b ch) = fibre (m ((c.tc : Thread nD τ).loc main_arg0)) b ch p := by
  rw [V_v21]
  have hp := p.isLt
  refine (shapeCast_apply _ _ (ix3 p b ch) (ix4 (⟨p.val / 28, by omega⟩ : Fin 28) (⟨p.val % 28, Nat.mod_lt _ (by norm_num)⟩ : Fin 28) b ch) ?_).trans ?_
  · rw [Shape.rowMajor_val_four, Shape.rowMajor_val_three]
    show ((p.val / 28 * 28 + p.val % 28) * 128 + b.val) * 256 + ch.val = (p.val * 128 + b.val) * 256 + ch.val
    have := Nat.div_add_mod p.val 28
    omega
  · refine (transpose_apply _ _ _ _ (ix4 b ch (⟨p.val / 28, by omega⟩ : Fin 28) (⟨p.val % 28, Nat.mod_lt _ (by norm_num)⟩ : Fin 28)) ?_).trans rfl
    intro a
    match a with
    | ⟨0, _⟩ => rfl
    | ⟨1, _⟩ => rfl
    | ⟨2, _⟩ => rfl
    | ⟨3, _⟩ => rfl

/-- Window 2's array as the region finds it: gamma over the square root of the running variance plus ε, as a row. -/
theorem V_v4 (c : Dev nD) : (V m c main_v4 : S1x512.Idx → EReal) = shapeCast S1x512 (Host.divf (F := Ideal) (m ((c.tc : Thread nD τ).loc main_arg3)) (Host.sqrt (F := Ideal) (addf (m ((c.tc : Thread nD τ).loc main_arg6)) (broadcastInDim S512 ![] bcast_S_S512 (constant (F := Ideal) S_ .f32 0x3727C5AC#32))))) shapeCasts_S512_S1x512 := by
  dsimp only [Gen.V, Gen.V0]
  simp only [Gen.hostOps0, Gen.hostOps0_1, Gen.hostOps0_2, List.flatten_cons, List.flatten_nil, List.append_nil, List.cons_append, List.nil_append]
  after_results
  rfl

/-- Window 2's array at (0, j) is the gain of hidden unit j. -/
theorem v4_apply (c : Dev nD) (j : Fin 512) :
    (V m c main_v4 : S1x512.Idx → EReal) (ix2 (0 : Fin 1) j) = gain (m ((c.tc : Thread nD τ).loc main_arg3)) (m ((c.tc : Thread nD τ).loc main_arg6)) j := by
  rw [V_v4]
  refine (shapeCast_a_1a_apply _ _ (0 : Fin 1) j).trans ?_
  rfl

set_option maxHeartbeats 1000000 in
/-- Window 3's array as the region finds it: the row of gains times (b1 − running mean), plus beta. -/
theorem V_v9 (c : Dev nD) : (V m c main_v9 : S1x512.Idx → EReal)
    = addf (mulf (shapeCast S1x512 (Host.divf (F := Ideal) (m ((c.tc : Thread nD τ).loc main_arg3)) (Host.sqrt (F := Ideal) (addf (m ((c.tc : Thread nD τ).loc main_arg6)) (broadcastInDim S512 ![] bcast_S_S512 (constant (F := Ideal) S_ .f32 0x3727C5AC#32))))) shapeCasts_S512_S1x512)
        (shapeCast S1x512 (subf (m ((c.tc : Thread nD τ).loc main_arg2)) (m ((c.tc : Thread nD τ).loc main_arg5))) shapeCasts_S512_S1x512))
      (shapeCast S1x512 (m ((c.tc : Thread nD τ).loc main_arg4)) shapeCasts_S512_S1x512) := by
  dsimp only [Gen.V, Gen.V0]
  simp only [Gen.hostOps0, Gen.hostOps0_1, Gen.hostOps0_2, List.flatten_cons, List.flatten_nil, List.append_nil, List.cons_append, List.nil_append]
  after_results_simp
  rfl

/-- Window 3's array at (0, j) is the offset of hidden unit j. -/
theorem v9_apply (c : Dev nD) (j : Fin 512) :
    (V m c main_v9 : S1x512.Idx → EReal) (ix2 (0 : Fin 1) j)
      = shift (m ((c.tc : Thread nD τ).loc main_arg3)) (m ((c.tc : Thread nD τ).loc main_arg6)) (m ((c.tc : Thread nD τ).loc main_arg2)) (m ((c.tc : Thread nD τ).loc main_arg5)) (m ((c.tc : Thread nD τ).loc main_arg4)) j := by
  rw [V_v9]
  refine (congrArg₂ (· + ·) (congrArg₂ (· * ·) (shapeCast_a_1a_apply _ _ (0 : Fin 1) j) (shapeCast_a_1a_apply _ _ (0 : Fin 1) j)) (shapeCast_a_1a_apply _ _ (0 : Fin 1) j)).trans ?_
  rfl

/-- Window 5's array as the region finds it: b2 as a row. -/
theorem V_v10 (c : Dev nD) : (V m c main_v10 : S1x16.Idx → EReal) = shapeCast S1x16 (m ((c.tc : Thread nD τ).loc main_arg8)) shapeCasts_S16_S1x16 := by
  dsimp only [Gen.V, Gen.V0]
  simp only [Gen.hostOps0, Gen.hostOps0_1, Gen.hostOps0_2, List.flatten_cons, List.flatten_nil, List.append_nil, List.cons_append, List.nil_append]
  after_results
  rfl

/-- Window 5's array at (0, k) is the logit offset of group k. -/
theorem v10_apply (c : Dev nD) (k : Fin 16) :
    (V m c main_v10 : S1x16.Idx → EReal) (ix2 (0 : Fin 1) k) = (m ((c.tc : Thread nD τ).loc main_arg8) : SB.Idx → EReal) (ix1 k) := by
  rw [V_v10]
  exact shapeCast_a_1a_apply _ _ (0 : Fin 1) k

/-- The printed index maps over the grid: windows 0 and 7 move along axis 1 with the point, the others stay. -/
theorem idx_facts : ∀ t : Fin cfg0.N,
    win0_0.index t (0 : Fin 3) = 0 ∧ win0_0.index t (1 : Fin 3) = t.val ∧ win0_0.index t (2 : Fin 3) = 0
    ∧ win0_7.index t (0 : Fin 3) = 0 ∧ win0_7.index t (1 : Fin 3) = t.val ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 0's block at point t, entry (q, r, ch), is the fibre entry of batch element 16 t + r. -/
theorem blk0_apply (c : Dev nD) (t : Fin cfg0.N) (q : Fin 784) (r : Fin 16) (ch : Fin 256) (b : Fin 128) (hb : b.val = 16 * t.val + r.val) :
    (iblk m c 0 t : Vec Ideal S784x16x256 .f32) (ix3 q r ch) = fibre (m ((c.tc : Thread nD τ).loc main_arg0)) b ch q := by
  obtain ⟨e0, e1, e2, -⟩ := idx_facts t
  refine Eq.trans ?_ (v21_apply m c q b ch)
  unfold iblk
  rw [View.read_apply]
  show V m c main_v21 _ = V m c main_v21 _
  congr 1
  funext a
  apply Fin.ext
  match a with
  | ⟨0, _⟩ => show win0_0.index t (0 : Fin 3) * 784 + 1 * q.val = q.val; rw [e0]; omega
  | ⟨1, _⟩ => show win0_0.index t (1 : Fin 3) * 16 + 1 * r.val = b.val; rw [e1, hb]; omega
  | ⟨2, _⟩ => show win0_0.index t (2 : Fin 3) * 256 + 1 * ch.val = ch.val; rw [e2]; omega

/-- Window 1's block is its whole array, the first weight matrix. -/
theorem blk1_eq (c : Dev nD) (t : Fin cfg0.N) :
    (iblk m c 1 t : Vec Ideal S512x256 .f32) = ((m ((c.tc : Thread nD τ).loc main_arg1)) : S512x256.Idx → EReal) := by
  obtain ⟨-, -, -, -, -, -, w10, w11, w20, w21, w30, w31, w40, w41, w50, w51, w60, w61⟩ := idx_facts t
  funext y
  refine Eq.trans ?_ (congrFun (V_main_arg1 m c) y)
  unfold iblk
  rw [View.read_apply]
  show V m c main_arg1 _ = V m c main_arg1 y
  congr 1
  funext a
  apply Fin.ext
  match a with
  | ⟨0, _⟩ => show win0_1.index t (0 : Fin 2) * 512 + 1 * (y 0).val = (y 0).val; rw [w10]; omega
  | ⟨1, _⟩ => show win0_1.index t (1 : Fin 2) * 256 + 1 * (y 1).val = (y 1).val; rw [w11]; omega

/-- Window 2's block is its whole array, the row of gains. -/
theorem blk2_eq (c : Dev nD) (t : Fin cfg0.N) :
    (iblk m c 2 t : Vec Ideal S1x512 .f32) = (V m c main_v4 : S1x512.Idx → EReal) := by
  obtain ⟨-, -, -, -, -, -, w10, w11, w20, w21, w30, w31, w40, w41, w50, w51, w60, w61⟩ := idx_facts t
  funext y
  refine Eq.trans ?_ (congrFun (rfl : (V m c main_v4 : S1x512.Idx → EReal) = V m c main_v4) y)
  unfold iblk
  rw [View.read_apply]
  show V m c main_v4 _ = V m c main_v4 y
  congr 1
  funext a
  apply Fin.ext
  match a with
  | ⟨0, _⟩ => show win0_2.index t (0 : Fin 2) * 1 + 1 * (y 0).val = (y 0).val; rw [w20]; omega
  | ⟨1, _⟩ => show win0_2.index t (1 : Fin 2) * 512 + 1 * (y 1).val = (y 1).val; rw [w21]; omega

/-- Window 3's block is its whole array, the row of offsets. -/
theorem blk3_eq (c : Dev nD) (t : Fin cfg0.N) :
    (iblk m c 3 t : Vec Ideal S1x512 .f32) = (V m c main_v9 : S1x512.Idx → EReal) := by
  obtain ⟨-, -, -, -, -, -, w10, w11, w20, w21, w30, w31, w40, w41, w50, w51, w60, w61⟩ := idx_facts t
  funext y
  refine Eq.trans ?_ (congrFun (rfl : (V m c main_v9 : S1x512.Idx → EReal) = V m c main_v9) y)
  unfold iblk
  rw [View.read_apply]
  show V m c main_v9 _ = V m c main_v9 y
  congr 1
  funext a
  apply Fin.ext
  match a with
  | ⟨0, _⟩ => show win0_3.index t (0 : Fin 2) * 1 + 1 * (y 0).val = (y 0).val; rw [w30]; omega
  | ⟨1, _⟩ => show win0_3.index t (1 : Fin 2) * 512 + 1 * (y 1).val = (y 1).val; rw [w31]; omega

/-- Window 4's block is its whole array, the second weight matrix. -/
theorem blk4_eq (c : Dev nD) (t : Fin cfg0.N) :
    (iblk m c 4 t : Vec Ideal S16x512 .f32) = ((m ((c.tc : Thread nD τ).loc main_arg7)) : S16x512.Idx → EReal) := by
  obtain ⟨-, -, -, -, -, -, w10, w11, w20, w21, w30, w31, w40, w41, w50, w51, w60, w61⟩ := idx_facts t
  funext y
  refine Eq.trans ?_ (congrFun (V_main_arg7 m c) y)
  unfold iblk
  rw [View.read_apply]
  show V m c main_arg7 _ = V m c main_arg7 y
  congr 1
  funext a
  apply Fin.ext
  match a with
  | ⟨0, _⟩ => show win0_4.index t (0 : Fin 2) * 16 + 1 * (y 0).val = (y 0).val; rw [w40]; omega
  | ⟨1, _⟩ => show win0_4.index t (1 : Fin 2) * 512 + 1 * (y 1).val = (y 1).val; rw [w41]; omega

/-- Window 5's block is its whole array, the row of logit offsets. -/
theorem blk5_eq (c : Dev nD) (t : Fin cfg0.N) :
    (iblk m c 5 t : Vec Ideal S1x16 .f32) = (V m c main_v10 : S1x16.Idx → EReal) := by
  obtain ⟨-, -, -, -, -, -, w10, w11, w20, w21, w30, w31, w40, w41, w50, w51, w60, w61⟩ := idx_facts t
  funext y
  refine Eq.trans ?_ (congrFun (rfl : (V m c main_v10 : S1x16.Idx → EReal) = V m c main_v10) y)
  unfold iblk
  rw [View.read_apply]
  show V m c main_v10 _ = V m c main_v10 y
  congr 1
  funext a
  apply Fin.ext
  match a with
  | ⟨0, _⟩ => show win0_5.index t (0 : Fin 2) * 1 + 1 * (y 0).val = (y 0).val; rw [w50]; omega
  | ⟨1, _⟩ => show win0_5.index t (1 : Fin 2) * 16 + 1 * (y 1).val = (y 1).val; rw [w51]; omega

/-- Window 6's block is its whole array, the membership matrix. -/
theorem blk6_eq (c : Dev nD) (t : Fin cfg0.N) :
    (iblk m c 6 t : Vec Ideal S16x256 .f32) = Mask.EtArr := by
  obtain ⟨-, -, -, -, -, -, w10, w11, w20, w21, w30, w31, w40, w41, w50, w51, w60, w61⟩ := idx_facts t
  funext y
  refine Eq.trans ?_ (congrFun (Mask.kern_mask m c) y)
  unfold iblk
  rw [View.read_apply]
  show V m c main_v19 _ = V m c main_v19 y
  congr 1
  funext a
  apply Fin.ext
  match a with
  | ⟨0, _⟩ => show win0_6.index t (0 : Fin 2) * 16 + 1 * (y 0).val = (y 0).val; rw [w60]; omega
  | ⟨1, _⟩ => show win0_6.index t (1 : Fin 2) * 256 + 1 * (y 1).val = (y 1).val; rw [w61]; omega

/-- Window 2's block at (0, j) is the gain of hidden unit j. -/
theorem blk2_apply (c : Dev nD) (t : Fin cfg0.N) (j : Fin 512) :
    (iblk m c 2 t : Vec Ideal S1x512 .f32) (ix2 (0 : Fin 1) j) = gain (m ((c.tc : Thread nD τ).loc main_arg3)) (m ((c.tc : Thread nD τ).loc main_arg6)) j :=
  (congrFun (blk2_eq m c t) _).trans (v4_apply m c j)

/-- Window 3's block at (0, j) is the offset of hidden unit j. -/
theorem blk3_apply (c : Dev nD) (t : Fin cfg0.N) (j : Fin 512) :
    (iblk m c 3 t : Vec Ideal S1x512 .f32) (ix2 (0 : Fin 1) j) = shift (m ((c.tc : Thread nD τ).loc main_arg3)) (m ((c.tc : Thread nD τ).loc main_arg6)) (m ((c.tc : Thread nD τ).loc main_arg2)) (m ((c.tc : Thread nD τ).loc main_arg5)) (m ((c.tc : Thread nD τ).loc main_arg4)) j :=
  (congrFun (blk3_eq m c t) _).trans (v9_apply m c j)

/-- Window 5's block at (0, k) is the logit offset of group k. -/
theorem blk5_apply (c : Dev nD) (t : Fin cfg0.N) (k : Fin 16) :
    (iblk m c 5 t : Vec Ideal S1x16 .f32) (ix2 (0 : Fin 1) k) = ((m ((c.tc : Thread nD τ).loc main_arg8)) : SB.Idx → EReal) (ix1 k) :=
  (congrFun (blk5_eq m c t) _).trans (v10_apply m c k)

/-- The zero offsets of a rank-3 rectangle. -/
theorem off3_zero : (![0, 0, 0] : Fin 3 → Nat) = fun _ => 0 := funext fun a => by fin_cases a <;> rfl
/-- The zero offsets of a rank-2 rectangle. -/
theorem off2_zero : (![0, 0] : Fin 2 → Nat) = fun _ => 0 := funext fun a => by fin_cases a <;> rfl

/-- What the body leaves in the output's buffer, entry by entry, over blocks of the literal shapes: its one store
    covers the buffer, and the stored value is the block entry times the channel scale of its row. -/
theorem out_lit (x0 : Vec Ideal S784x16x256 .f32) (x1 : Vec Ideal S512x256 .f32) (x2 x3 : Vec Ideal S1x512 .f32)
    (x4 : Vec Ideal S16x512 .f32) (x5 : Vec Ideal S1x16 .f32) (x6 : Vec Ideal S16x256 .f32)
    (p : Fin 784) (r : Fin 16) (ch : Fin 256) :
    out0_7 (F := Ideal) x0 x1 x2 x3 x4 x5 x6 (ix3 p r ch)
      = x0 (ix3 p r ch)
        * attn (hidK (fun c => pool (fun q => x0 (ix3 q r c))) (fun j c => x1 (ix2 j c))
              (fun j => x2 (ix2 (0 : Fin 1) j)) (fun j => x3 (ix2 (0 : Fin 1) j)))
            (fun k j => x4 (ix2 k j)) (fun k => x5 (ix2 (0 : Fin 1) k)) (fun k c => x6 (ix2 k c)) ch := by
  unfold out0_7
  rw [View.canon_unit_zero off3_zero]
  simp only [View.ld_unit_zero (S := S784x16x256) off3_zero, View.ld_unit_zero (S := S512x256) off2_zero,
    View.ld_unit_zero (S := S1x512) off2_zero, View.ld_unit_zero (S := S16x512) off2_zero,
    View.ld_unit_zero (S := S1x16) off2_zero, View.ld_unit_zero (S := S16x256) off2_zero]
  exact payload_apply x0 x1 x2 x3 x4 x5 x6 p r ch

/-- Entry (p, b, ch) of the array the region writes: x at (b, ch, p / 28, p % 28) times the scale of channel ch of
    batch element b. -/
def regionVal (c : Dev nD) (p : Fin 784) (b : Fin 128) (ch : Fin 256) : EReal :=
  fibre (m ((c.tc : Thread nD τ).loc main_arg0)) b ch p * scaleK (fun k ch => Mask.EtArr (ix2 k ch)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) b ch

/-- The [784, 128, 256] array the region writes. -/
def regionArr (c : Dev nD) : FVec Ideal S784x128x256 .f32 := fun i => regionVal m c (i 0) (i 1) (i 2)

/-- What the body leaves at point t, entry (p, r, ch): the region's entry of batch element 16 t + r. -/
theorem out_apply (c : Dev nD) (t : Fin cfg0.N) (p : Fin 784) (r : Fin 16) (ch : Fin 256) (b : Fin 128) (hb : b.val = 16 * t.val + r.val) :
    out0_7 (F := Ideal) (iblk m c 0 t) (iblk m c 1 t) (iblk m c 2 t) (iblk m c 3 t) (iblk m c 4 t) (iblk m c 5 t) (iblk m c 6 t) (ix3 p r ch)
      = regionVal m c p b ch := by
  refine (out_lit (iblk m c 0 t) (iblk m c 1 t) (iblk m c 2 t) (iblk m c 3 t) (iblk m c 4 t) (iblk m c 5 t) (iblk m c 6 t) p r ch).trans ?_
  have h0 : ∀ (q : Fin 784) (c' : Fin 256), (iblk m c 0 t : Vec Ideal S784x16x256 .f32) (ix3 q r c') = fibre (m ((c.tc : Thread nD τ).loc main_arg0)) b c' q :=
    fun q c' => blk0_apply m c t q r c' b hb
  simp only [h0, blk1_eq m c t, blk2_apply m c t, blk3_apply m c t, blk4_eq m c t, blk5_apply m c t, blk6_eq m c t]
  unfold regionVal scaleK
  rfl

/-- What point t writes back is block t of the region's array. -/
theorem flushed_eq (c : Dev nD) (t : Fin cfg0.N) :
    (dats m 0 c).flushed 7 t = ((cfg0.win 7).blk t).view.read (Elt Ideal) (regionArr m c) := by
  show (cfg0.win 7).cut (grid0.coords t) ((dats m 0 c).after 7 t) = _
  rw [after0_7]
  obtain ⟨-, -, -, o0, o1, o2, -⟩ := idx_facts t
  have hN : cfg0.N = 8 := N_0
  have ht : t.val < 8 := hN ▸ t.isLt
  funext y
  have hy0 : (y 0).val < 784 := (y 0).isLt
  have hy1 : (y 1).val < 16 := (y 1).isLt
  have hy2 : (y 2).val < 256 := (y 2).isLt
  have hb : 16 * t.val + (y 1).val < 128 := by omega
  have hy : (cfg0.win 7).xinj (grid0.coords t) y = ix3 (⟨(y 0).val, hy0⟩ : Fin 784) (⟨(y 1).val, hy1⟩ : Fin 16) (⟨(y 2).val, hy2⟩ : Fin 256) :=
    funext fun a => match a with | ⟨0, _⟩ => rfl | ⟨1, _⟩ => rfl | ⟨2, _⟩ => rfl
  have he : ((cfg0.win 7).blk t).view.emb y = ix3 (⟨(y 0).val, hy0⟩ : Fin 784) (⟨16 * t.val + (y 1).val, hb⟩ : Fin 128) (⟨(y 2).val, hy2⟩ : Fin 256) := by
    funext a
    apply Fin.ext
    match a with
    | ⟨0, _⟩ => show win0_7.index t (0 : Fin 3) * 784 + 1 * (y 0).val = (y 0).val; rw [o0]; omega
    | ⟨1, _⟩ => show win0_7.index t (1 : Fin 3) * 16 + 1 * (y 1).val = 16 * t.val + (y 1).val; rw [o1]; omega
    | ⟨2, _⟩ => show win0_7.index t (2 : Fin 3) * 256 + 1 * (y 2).val = (y 2).val; rw [o2]; omega
  refine ((congrArg (out0_7 (F := Ideal) (iblk m c 0 t) (iblk m c 1 t) (iblk m c 2 t) (iblk m c 3 t) (iblk m c 4 t) (iblk m c 5 t) (iblk m c 6 t)) hy).trans
    (out_apply m c t ⟨(y 0).val, hy0⟩ ⟨(y 1).val, hy1⟩ ⟨(y 2).val, hy2⟩ ⟨16 * t.val + (y 1).val, hb⟩ rfl)).trans ?_
  rw [View.read_apply]
  exact (congrArg (regionArr m c) he).symm

/-- An index of the array is in point t's block iff each coordinate is in the block's range on its axis. -/
theorem mem_blk (t : Fin cfg0.N) (i : S784x128x256.Idx) :
    i ∈ ((cfg0.win 7).blk t).view.set ↔ ∀ a : Fin 3, win0_7.index t a * S784x16x256.size a ≤ (i a).val ∧ (i a).val < win0_7.index t a * S784x16x256.size a + S784x16x256.size a := by
  show i ∈ ((View.whole main_v22).slice (win0_7.rect t)).set ↔ _
  rw [View.set_slice_whole, Rect.mem_set_unit]
  exact Iff.rfl

/-- The eight blocks tile the array (batch element b lies in the block of point b / 16), so after the run the region's
    array holds its entries everywhere. -/
theorem region_final (c : Dev nD) : (dats m 0 c).arrAt 7 cfg0.N = regionArr m c :=
  (dats m 0 c).arrAt_eq_of_cover 7 (regionArr m c) (fun t _ => flushed_eq m c t) fun i => by
    have hN : cfg0.N = 8 := N_0
    have hi0 : (i 0).val < 784 := (i 0).isLt
    have hi1 : (i 1).val < 128 := (i 1).isLt
    have hi2 : (i 2).val < 256 := (i 2).isLt
    obtain ⟨t, ht⟩ : ∃ t : Fin cfg0.N, t.val = (i 1).val / 16 := ⟨⟨(i 1).val / 16, by rw [hN]; omega⟩, rfl⟩
    obtain ⟨-, -, -, o0, o1, o2, -⟩ := idx_facts t
    refine ⟨t, flush0_7 t, ?_⟩
    rw [mem_blk]
    intro a
    match a with
    | ⟨0, _⟩ => show win0_7.index t (0 : Fin 3) * 784 ≤ (i 0).val ∧ (i 0).val < win0_7.index t (0 : Fin 3) * 784 + 784; rw [o0]; omega
    | ⟨1, _⟩ => show win0_7.index t (1 : Fin 3) * 16 ≤ (i 1).val ∧ (i 1).val < win0_7.index t (1 : Fin 3) * 16 + 16; rw [o1, ht]; omega
    | ⟨2, _⟩ => show win0_7.index t (2 : Fin 3) * 256 ≤ (i 2).val ∧ (i 2).val < win0_7.index t (2 : Fin 3) * 256 + 256; rw [o2]; omega

/-- The result buffer after the two layout operations that follow the region: the region's array recast to
    [28, 28, 128, 256] and transposed to [128, 256, 28, 28]. -/
theorem tail_eq (c : Dev nD) : (Pipeline.afterTail₀ cfgs (dats m) 0 (V0 m) [hostOps1] c main_v24 : S128x256x28x28.Idx → EReal)
    = transpose S128x256x28x28 [2, 3, 0, 1] (shapeCast S28x28x128x256 (regionArr m c) shapeCasts_S784x128x256_S28x28x128x256) transposes_S28x28x128x256_S128x256x28x28_2_3_0_1 := by
  unfold Pipeline.afterTail₀
  show StableHlo.after hostOps1 _ (Proc.devRef .tc main_v24) = _
  after_results
  rw [show Pipeline.withArrays (cfgs 0).spec c (V0 m c) (fun w => (dats m 0 c).arrAt w (cfgs 0).N) (Proc.devRef .tc main_v22) = regionArr m c from
    (Pipeline.withArrays_arr spec0 launch0.win.arr_inj c _ _ 7).trans (region_final m c)]
  rfl

/-- The result buffer is x times the channel scale: entry (b, ch, h, w) comes from the region's entry
    (28 h + w, b, ch), whose fibre position 28 h + w is (h, w) again. -/
theorem result_eq (c : Dev nD) : (Pipeline.afterTail₀ cfgs (dats m) 0 (V0 m) [hostOps1] c main_v24 : S128x256x28x28.Idx → EReal)
    = outK (fun k ch => Mask.EtArr (ix2 k ch)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [tail_eq]
  funext i
  obtain ⟨b, ch, hh, ww, rfl⟩ : ∃ (b : Fin 128) (ch : Fin 256) (hh ww : Fin 28), i = ix4 b ch hh ww := ⟨i 0, i 1, i 2, i 3, eq_ix4 i⟩
  have hhh := hh.isLt
  have hww := ww.isLt
  have hp : 28 * hh.val + ww.val < 784 := by omega
  refine (transpose_apply _ _ _ (ix4 b ch hh ww) (ix4 hh ww b ch) ?_).trans ?_
  · intro a
    match a with
    | ⟨0, _⟩ => rfl
    | ⟨1, _⟩ => rfl
    | ⟨2, _⟩ => rfl
    | ⟨3, _⟩ => rfl
  refine (shapeCast_apply _ _ (ix4 hh ww b ch) (ix3 (⟨28 * hh.val + ww.val, hp⟩ : Fin 784) b ch) ?_).trans ?_
  · rw [Shape.rowMajor_val_three, Shape.rowMajor_val_four]
    show ((28 * hh.val + ww.val) * 128 + b.val) * 256 + ch.val = ((hh.val * 28 + ww.val) * 128 + b.val) * 256 + ch.val
    omega
  show regionVal m c ⟨28 * hh.val + ww.val, hp⟩ b ch = _
  have hf : fibre (m ((c.tc : Thread nD τ).loc main_arg0)) b ch ⟨28 * hh.val + ww.val, hp⟩ = ((m ((c.tc : Thread nD τ).loc main_arg0)) : SX.Idx → EReal) (ix4 b ch hh ww) := by
    unfold fibre
    exact congrArg _ (funext fun a => match a with
      | ⟨0, _⟩ => rfl
      | ⟨1, _⟩ => rfl
      | ⟨2, _⟩ => Fin.ext (by show (28 * hh.val + ww.val) / 28 = hh.val; omega)
      | ⟨3, _⟩ => Fin.ext (by show (28 * hh.val + ww.val) % 28 = ww.val; omega))
  unfold regionVal outK
  rw [hf]

/-- Every weakly fair execution ends with the result at x times the channel scale (gain after the contraction),
    the arguments as launched. -/
theorem run : θ_run (defs (F := Ideal)) (onTc (τ := τ) (main (F := Ideal))) ⟨m, fun _ => 0, ρ⟩ (fun r => ∀ c : Dev nD,
      r.2.mem ((c.tc : Thread nD τ).loc main_v24)
        = outK (fun k ch => Mask.EtArr (ix2 k ch)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v24 (Pipeline.mem_restRefs_of main_v24 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c))⟩) (run_main m ρ)

end Cert.GroupAtt.Kern

end
-- ==== Proof.RefPayload.lean ====
/-
  What the pooling-and-attention body leaves in its [1, 256, 1] output block at one grid point: at channel ch the
  channel scale computed from the point's [1, 256, 896] input block — the padded pooling of each channel's 896 lanes,
  the hidden layer over weights that already carry the gain, the logits, the softmax over groups and the expansion
  to channels. Both branches of the body are taken at every point (there is one spatial tile), so the two scratch
  accumulators are reset, updated and read within the point.
-/
import proofs.«148205_g2000704464797211_pallasbulk_780_16_alg».proof.Proof.Gen.ReferenceIdeal.Frame
import proofs.«148205_g2000704464797211_pallasbulk_780_16_alg».proof.Proof.Spec
import proofs.«148205_g2000704464797211_pallasbulk_780_16_alg».proof.Proof.Algebra
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.GroupAtt.Ref

open Idealize.ShloMosaic Idealize.ShloMosaic.ValueIdx Idealize.ShloMosaic.TcCoe Idealize.SL.Sem
open Cert.ReferenceIdeal Cert.ReferenceIdeal.Gen

namespace Pay

/-- The zero offsets of a rank-3 block, as the constant function. -/
theorem hz3 : (![0,0,0] : Fin 3 → ℕ) = fun _ => 0 := by
  funext a; match a with | ⟨0, _⟩ => rfl | ⟨1, _⟩ => rfl | ⟨2, _⟩ => rfl
/-- The zero offsets of a rank-2 block, as the constant function. -/
theorem hz2 : (![0,0] : Fin 2 → ℕ) = fun _ => 0 := by
  funext a; match a with | ⟨0, _⟩ => rfl | ⟨1, _⟩ => rfl

/-! ## Column forms of the layout operations -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The lane mask -/

/-- Lane `q` of the one spatial tile is a position of the fibre exactly when `q < 784`: the compared word is `q` itself. -/
theorem mask_bit (q : Fin 896) :
    IntOp.cmpi .slt (IntOp.addi (BitVec.ofNat 32 q.val) (Scalar.muli (BitVec.ofNat 32 0) 896#32)) 784#32
      = if q.val < 784 then 1#1 else 0#1 := by
  have hq := q.isLt
  have hw : IntOp.addi (BitVec.ofNat 32 q.val) (Scalar.muli (BitVec.ofNat 32 0) 896#32) = BitVec.ofNat 32 q.val := by
    show BitVec.ofNat 32 q.val + BitVec.ofNat 32 0 * 896#32 = _
    rw [show BitVec.ofNat 32 0 = 0#32 from rfl, BitVec.zero_mul, BitVec.add_zero]
  rw [hw]
  have hn : (BitVec.ofNat 32 q.val).toNat = q.val := by rw [BitVec.toNat_ofNat]; omega
  have hb : (784#32 : BitVec 32).toNat = 784 := rfl
  have hiff := StableHlo.Predicate.slt_iff_toNat (a := BitVec.ofNat 32 q.val) (b := 784#32) (by rw [hn]; omega) (by rw [hb]; omega)
  rw [hn, hb] at hiff
  by_cases hlt : q.val < 784
  · rw [if_pos hlt]; exact hiff.mpr hlt
  · rw [if_neg hlt]; exact eq_zero_of_ne_one (fun h => hlt (hiff.mp h))

/-! ## The two pooled accumulators at a channel -/

/-- The index a lane reduction of a `[256, 896]` block inserts at channel `c'`, lane `q`. -/
theorem lift_lane (h : S256x896.Reduces [1] S256) (c' : Fin 256) (q : Fin 896) :
    h.lift (ix1 c') q = ix2 c' q := by
  funext a
  match a with
  | ⟨0, _⟩ => exact Fin.ext rfl
  | ⟨1, _⟩ => exact Fin.ext rfl

/-- The sum accumulator after the point: zero plus the sum of the channel's 896 lanes. -/
theorem pay4_apply (x0 : Vec Ideal S1x256x896 .f32) (c' : Fin 256) :
    k0_pay4 (F := Ideal) x0 (k0_pay1 (F := Ideal)) (ix2 c' (0 : Fin 1)) = 0 + ∑ q : Fin 896, x0 (ix3 (0 : Fin 1) c' q) := by
  unfold k0_pay4 k0_pay1 k0_pay3
  refine (congrFun (shapeCast_self _ _) _).trans ?_
  refine congrArg₂ (· + ·) ?_ ?_
  · refine (congrFun (shapeCast_self _ _) _).trans ?_
    exact Ideal.ofBits_zero_f32
  · refine (shapeCast_a_a1_apply _ _ c' (0 : Fin 1)).trans ?_
    refine (Ideal.multiReduction_add_single _ _ _ _ _ (ix1 c')).trans ?_
    refine Finset.sum_congr rfl fun (q : Fin 896) _ => ?_
    refine (congrArg _ (lift_lane _ c' q)).trans ?_
    exact shapeCast_1ab_ab_apply x0 _ c' q

/-- The lane mask of the block at channel `c'`, lane `q`: set exactly on the fibre's 784 positions (the point's one
    spatial tile starts at lane 0). -/
theorem mask_apply (i : grid0.Coords) (h : S256x896.Iotas .tc 32 [1]) (c' : Fin 256) (q : Fin 896) :
    cmpi .slt (addi (iota .tc S256x896 32 [1] h) (broadcast S256x896 (Scalar.muli (BitVec.ofNat 32 (i 1).val) 896#32)))
        (broadcast S256x896 784#32) (ix2 c' q)
      = if q.val < 784 then 1#1 else 0#1 := by
  have hi : (i 1).val = 0 := by have h1 := (i 1).isLt; change _ < 1 at h1; omega
  show IntOp.cmpi .slt (IntOp.addi (iota .tc S256x896 32 [1] h (ix2 c' q)) (Scalar.muli (BitVec.ofNat 32 (i 1).val) 896#32)) 784#32 = _
  rw [iota_single_apply, hi]
  exact mask_bit q

/-- A masked lane: the block's entry on the fibre's positions, −∞ on the padding. -/
theorem masked_lane (m : IVec S256x896 1) (X B : FVec Ideal S256x896 .f32) (a : EReal) (c' : Fin 256) (q : Fin 896)
    (hm : m (ix2 c' q) = if q.val < 784 then 1#1 else 0#1) (hX : X (ix2 c' q) = a) (hB : B (ix2 c' q) = ⊥) :
    select m X B (ix2 c' q) = if q.val < 784 then a else ⊥ := by
  refine (select_apply _ _ _ (ix2 c' q)).trans ?_
  rw [hm]
  by_cases hlt : q.val < 784
  · rw [if_pos hlt, if_pos hlt, select_one]; exact hX
  · rw [if_neg hlt, if_neg hlt, select_zero]; exact hB

/-- The maximum accumulator after the point: −∞ joined with the maximum of the channel's first 784 lanes. -/
theorem pay5_apply (i : grid0.Coords) (x0 : Vec Ideal S1x256x896 .f32) (c' : Fin 256) :
    k0_pay5 (F := Ideal) i x0 (k0_pay2 (F := Ideal)) (ix2 c' (0 : Fin 1))
      = max ⊥ (Finset.univ.fold max ⊥ fun q : Fin 896 => if q.val < 784 then x0 (ix3 (0 : Fin 1) c' q) else ⊥) := by
  unfold k0_pay5 k0_pay2 k0_pay3
  refine (congrFun (shapeCast_self _ _) _).trans ?_
  refine congrArg₂ max ?_ ?_
  · refine (congrFun (shapeCast_self _ _) _).trans ?_
    exact ofBits_negInf
  · refine (shapeCast_a_a1_apply _ _ c' (0 : Fin 1)).trans ?_
    refine (Ideal.multiReduction_maximumf_single _ _ _ _ _ (ix1 c')).trans ?_
    refine congrArg₂ (fun b (f : Fin 896 → EReal) => Finset.univ.fold max b f) ofBits_negInf (funext fun q => ?_)
    refine (congrArg _ (lift_lane _ c' q)).trans ?_
    exact masked_lane _ _ _ _ c' q (mask_apply i _ c' q) (shapeCast_1ab_ab_apply x0 _ c' q) ofBits_negInf

/-! ## The three products: a matrix times a column, into a zero accumulator -/

/-- The left factor's row is the result's row. -/
theorem lhsH_0 (j : S512x1.Idx) (k : dot_S512x256_S256x1_S512x1_1_0_0_1_n_n.contr.Idx) : (dot_S512x256_S256x1_S512x1_1_0_0_1_n_n.lhsIdx j k 0 : ℕ) = j 0 := by
  simp [DotDims.lhsIdx, dot_S512x256_S256x1_S512x1_1_0_0_1_n_n]; rfl
/-- The left factor's column is the contraction position. -/
theorem lhsH_1 (j : S512x1.Idx) (k : dot_S512x256_S256x1_S512x1_1_0_0_1_n_n.contr.Idx) : (dot_S512x256_S256x1_S512x1_1_0_0_1_n_n.lhsIdx j k 1 : ℕ) = k ⟨0, by decide⟩ := by
  simp [DotDims.lhsIdx, dot_S512x256_S256x1_S512x1_1_0_0_1_n_n]; rfl
/-- The right factor's row is the contraction position. -/
theorem rhsH_0 (j : S512x1.Idx) (k : dot_S512x256_S256x1_S512x1_1_0_0_1_n_n.contr.Idx) : (dot_S512x256_S256x1_S512x1_1_0_0_1_n_n.rhsIdx j k 0 : ℕ) = k ⟨0, by decide⟩ := by
  simp [DotDims.rhsIdx, dot_S512x256_S256x1_S512x1_1_0_0_1_n_n]; rfl
/-- The right factor's column is the result's one column. -/
theorem rhsH_1 (j : S512x1.Idx) (k : dot_S512x256_S256x1_S512x1_1_0_0_1_n_n.contr.Idx) : (dot_S512x256_S256x1_S512x1_1_0_0_1_n_n.rhsIdx j k 1 : ℕ) = j 1 := by
  simp [DotDims.rhsIdx, dot_S512x256_S256x1_S512x1_1_0_0_1_n_n]
  have h := (j 1).isLt; change (j 1).val < 1 at h; omega

/-- The hidden layer's product at unit `r`: the row of weights against the pooled column. -/
theorem mmH_apply (L : FVec Ideal S512x256 .f32) (R : FVec Ideal S256x1 .f32) (r : Fin 512) :
    matmul (F := Ideal) dot_S512x256_S256x1_S512x1_1_0_0_1_n_n none L R (constant (F := Ideal) S512x1 .f32 0x00000000#32) (ix2 r (0 : Fin 1))
      = ∑ c : Fin 256, L (ix2 r c) * R (ix2 c (0 : Fin 1)) := by
  refine (Ideal.matmul_constant_zero_apply _ _ L R _).trans ?_
  rw [← Equiv.sum_comp (contrEquiv1 dot_S512x256_S256x1_S512x1_1_0_0_1_n_n 256 rfl rfl).symm]
  refine Finset.sum_congr rfl fun c _ => ?_
  have hk := contrEquiv1_symm_val dot_S512x256_S256x1_S512x1_1_0_0_1_n_n 256 rfl rfl c
  refine congrArg₂ (· * ·) (congrArg L (funext fun a => Fin.ext ?_)) (congrArg R (funext fun a => Fin.ext ?_))
  · match a with
    | ⟨0, _⟩ => exact lhsH_0 _ _
    | ⟨1, _⟩ => exact (lhsH_1 _ _).trans hk
  · match a with
    | ⟨0, _⟩ => exact (rhsH_0 _ _).trans hk
    | ⟨1, _⟩ => exact rhsH_1 _ _

/-- The left factor's row is the result's row. -/
theorem lhsL_0 (j : S16x1.Idx) (k : dot_S16x512_S512x1_S16x1_1_0_0_1_n_n.contr.Idx) : (dot_S16x512_S512x1_S16x1_1_0_0_1_n_n.lhsIdx j k 0 : ℕ) = j 0 := by
  simp [DotDims.lhsIdx, dot_S16x512_S512x1_S16x1_1_0_0_1_n_n]; rfl
/-- The left factor's column is the contraction position. -/
theorem lhsL_1 (j : S16x1.Idx) (k : dot_S16x512_S512x1_S16x1_1_0_0_1_n_n.contr.Idx) : (dot_S16x512_S512x1_S16x1_1_0_0_1_n_n.lhsIdx j k 1 : ℕ) = k ⟨0, by decide⟩ := by
  simp [DotDims.lhsIdx, dot_S16x512_S512x1_S16x1_1_0_0_1_n_n]; rfl
/-- The right factor's row is the contraction position. -/
theorem rhsL_0 (j : S16x1.Idx) (k : dot_S16x512_S512x1_S16x1_1_0_0_1_n_n.contr.Idx) : (dot_S16x512_S512x1_S16x1_1_0_0_1_n_n.rhsIdx j k 0 : ℕ) = k ⟨0, by decide⟩ := by
  simp [DotDims.rhsIdx, dot_S16x512_S512x1_S16x1_1_0_0_1_n_n]; rfl
/-- The right factor's column is the result's one column. -/
theorem rhsL_1 (j : S16x1.Idx) (k : dot_S16x512_S512x1_S16x1_1_0_0_1_n_n.contr.Idx) : (dot_S16x512_S512x1_S16x1_1_0_0_1_n_n.rhsIdx j k 1 : ℕ) = j 1 := by
  simp [DotDims.rhsIdx, dot_S16x512_S512x1_S16x1_1_0_0_1_n_n]
  have h := (j 1).isLt; change (j 1).val < 1 at h; omega

/-- The logits' product at group `r`: the row of weights against the hidden column. -/
theorem mmL_apply (L : FVec Ideal S16x512 .f32) (R : FVec Ideal S512x1 .f32) (r : Fin 16) :
    matmul (F := Ideal) dot_S16x512_S512x1_S16x1_1_0_0_1_n_n none L R (constant (F := Ideal) S16x1 .f32 0x00000000#32) (ix2 r (0 : Fin 1))
      = ∑ c : Fin 512, L (ix2 r c) * R (ix2 c (0 : Fin 1)) := by
  refine (Ideal.matmul_constant_zero_apply _ _ L R _).trans ?_
  rw [← Equiv.sum_comp (contrEquiv1 dot_S16x512_S512x1_S16x1_1_0_0_1_n_n 512 rfl rfl).symm]
  refine Finset.sum_congr rfl fun c _ => ?_
  have hk := contrEquiv1_symm_val dot_S16x512_S512x1_S16x1_1_0_0_1_n_n 512 rfl rfl c
  refine congrArg₂ (· * ·) (congrArg L (funext fun a => Fin.ext ?_)) (congrArg R (funext fun a => Fin.ext ?_))
  · match a with
    | ⟨0, _⟩ => exact lhsL_0 _ _
    | ⟨1, _⟩ => exact (lhsL_1 _ _).trans hk
  · match a with
    | ⟨0, _⟩ => exact (rhsL_0 _ _).trans hk
    | ⟨1, _⟩ => exact rhsL_1 _ _

/-- The left factor's row is the result's row. -/
theorem lhsE_0 (j : S256x1.Idx) (k : dot_S256x16_S16x1_S256x1_1_0_0_1_n_n.contr.Idx) : (dot_S256x16_S16x1_S256x1_1_0_0_1_n_n.lhsIdx j k 0 : ℕ) = j 0 := by
  simp [DotDims.lhsIdx, dot_S256x16_S16x1_S256x1_1_0_0_1_n_n]; rfl
/-- The left factor's column is the contraction position. -/
theorem lhsE_1 (j : S256x1.Idx) (k : dot_S256x16_S16x1_S256x1_1_0_0_1_n_n.contr.Idx) : (dot_S256x16_S16x1_S256x1_1_0_0_1_n_n.lhsIdx j k 1 : ℕ) = k ⟨0, by decide⟩ := by
  simp [DotDims.lhsIdx, dot_S256x16_S16x1_S256x1_1_0_0_1_n_n]; rfl
/-- The right factor's row is the contraction position. -/
theorem rhsE_0 (j : S256x1.Idx) (k : dot_S256x16_S16x1_S256x1_1_0_0_1_n_n.contr.Idx) : (dot_S256x16_S16x1_S256x1_1_0_0_1_n_n.rhsIdx j k 0 : ℕ) = k ⟨0, by decide⟩ := by
  simp [DotDims.rhsIdx, dot_S256x16_S16x1_S256x1_1_0_0_1_n_n]; rfl
/-- The right factor's column is the result's one column. -/
theorem rhsE_1 (j : S256x1.Idx) (k : dot_S256x16_S16x1_S256x1_1_0_0_1_n_n.contr.Idx) : (dot_S256x16_S16x1_S256x1_1_0_0_1_n_n.rhsIdx j k 1 : ℕ) = j 1 := by
  simp [DotDims.rhsIdx, dot_S256x16_S16x1_S256x1_1_0_0_1_n_n]
  have h := (j 1).isLt; change (j 1).val < 1 at h; omega

/-- The expansion's product at channel `r`: the channel's membership row against the group weights. -/
theorem mmE_apply (L : FVec Ideal S256x16 .f32) (R : FVec Ideal S16x1 .f32) (r : Fin 256) :
    matmul (F := Ideal) dot_S256x16_S16x1_S256x1_1_0_0_1_n_n none L R (constant (F := Ideal) S256x1 .f32 0x00000000#32) (ix2 r (0 : Fin 1))
      = ∑ c : Fin 16, L (ix2 r c) * R (ix2 c (0 : Fin 1)) := by
  refine (Ideal.matmul_constant_zero_apply _ _ L R _).trans ?_
  rw [← Equiv.sum_comp (contrEquiv1 dot_S256x16_S16x1_S256x1_1_0_0_1_n_n 16 rfl rfl).symm]
  refine Finset.sum_congr rfl fun c _ => ?_
  have hk := contrEquiv1_symm_val dot_S256x16_S16x1_S256x1_1_0_0_1_n_n 16 rfl rfl c
  refine congrArg₂ (· * ·) (congrArg L (funext fun a => Fin.ext ?_)) (congrArg R (funext fun a => Fin.ext ?_))
  · match a with
    | ⟨0, _⟩ => exact lhsE_0 _ _
    | ⟨1, _⟩ => exact (lhsE_1 _ _).trans hk
  · match a with
    | ⟨0, _⟩ => exact (rhsE_0 _ _).trans hk
    | ⟨1, _⟩ => exact rhsE_1 _ _

/-! ## The attention stages over a column -/

/-- The index a reduction over the rows of a `[16, 1]` column inserts at row `k`. -/
theorem lift_row (h : S16x1.Reduces [0] S1) (u : Fin 1) (k : Fin 16) : h.lift (ix1 u) k = ix2 k u := by
  funext a
  match a with
  | ⟨0, _⟩ => exact Fin.ext rfl
  | ⟨1, _⟩ => exact Fin.ext rfl

/-- The hidden layer at unit `j`: the weights' row against the pooled column, plus the offset, clamped at zero. -/
theorem hid_stage (v34 : FVec Ideal S256x1 .f32) (x1 : FVec Ideal S512x256 .f32) (x2 : FVec Ideal S512x1 .f32)
    (h1 : S512x256.ShapeCasts S512x256) (h2 : S512x1.ShapeCasts S512x1) (j : Fin 512) :
    maximumf (addf (matmul (F := Ideal) dot_S512x256_S256x1_S512x1_1_0_0_1_n_n none (shapeCast S512x256 x1 h1) v34
          (constant (F := Ideal) S512x1 .f32 0x00000000#32)) (shapeCast S512x1 x2 h2))
        (broadcast S512x1 (Scalar.ofBits (F := Ideal) .f32 0x00000000#32)) (ix2 j (0 : Fin 1))
      = hidR0 (fun c' => v34 (ix2 c' (0 : Fin 1))) (fun j c' => x1 (ix2 j c')) (fun j => x2 (ix2 j (0 : Fin 1))) j := by
  rw [shapeCast_self, shapeCast_self]
  show max (matmul (F := Ideal) dot_S512x256_S256x1_S512x1_1_0_0_1_n_n none x1 v34 (constant (F := Ideal) S512x1 .f32 0x00000000#32) (ix2 j (0 : Fin 1))
      + x2 (ix2 j (0 : Fin 1))) (Ideal.ofBits .f32 0x00000000#32) = _
  rw [mmH_apply, Ideal.ofBits_zero_f32]
  rfl

/-- The logit of group `k`: the weights' row against the hidden column, plus the bias. -/
theorem logit_stage (v42 : FVec Ideal S512x1 .f32) (x3 : FVec Ideal S16x512 .f32) (x4 : FVec Ideal S16x1 .f32)
    (h4 : S16x1.ShapeCasts S16x1) (k : Fin 16) :
    addf (matmul (F := Ideal) dot_S16x512_S512x1_S16x1_1_0_0_1_n_n none x3 v42 (constant (F := Ideal) S16x1 .f32 0x00000000#32))
        (shapeCast S16x1 x4 h4) (ix2 k (0 : Fin 1))
      = logit (fun j => v42 (ix2 j (0 : Fin 1))) (fun k j => x3 (ix2 k j)) (fun k => x4 (ix2 k (0 : Fin 1))) k := by
  rw [shapeCast_self]
  show matmul (F := Ideal) dot_S16x512_S512x1_S16x1_1_0_0_1_n_n none x3 v42 (constant (F := Ideal) S16x1 .f32 0x00000000#32) (ix2 k (0 : Fin 1))
      + x4 (ix2 k (0 : Fin 1)) = (∑ j : Fin 512, v42 (ix2 j (0 : Fin 1)) * x3 (ix2 k j)) + x4 (ix2 k (0 : Fin 1))
  rw [mmL_apply]
  exact congrArg (· + x4 (ix2 k (0 : Fin 1))) (Finset.sum_congr rfl fun j _ => mul_comm _ _)

/-- The scale of channel `ch`: its membership row against the column of group weights. -/
theorem scale_stage (v56 : FVec Ideal S16x1 .f32) (x5 : FVec Ideal S256x16 .f32) (h5 : S256x16.ShapeCasts S256x16) (ch : Fin 256) :
    matmul (F := Ideal) dot_S256x16_S16x1_S256x1_1_0_0_1_n_n none (shapeCast S256x16 x5 h5) v56
        (constant (F := Ideal) S256x1 .f32 0x00000000#32) (ix2 ch (0 : Fin 1))
      = scale (fun k => v56 (ix2 k (0 : Fin 1))) (fun k c' => x5 (ix2 c' k)) ch := by
  rw [shapeCast_self, mmE_apply]
  exact Finset.sum_congr rfl fun k _ => mul_comm _ _

/-- The softmax of a column of sixteen logits at group `k`: the shift by the column's maximum, the exponentials and
    their sum, each read off its one-entry reduction broadcast back over the column. -/
theorem smax_stage (v47 : FVec Ideal S16x1 .f32) (hr : S16x1.Reduces [0] S1) (hc : S1.ShapeCasts S1x1) (hb : S1x1.Broadcasts S16x1)
    (hφ : FKind.Formats .f32) (hmax : (0xFF800000#32 : BitVec 32) = FKind.maximumf.neutral .f32 hφ)
    (hadd : (0x00000000#32 : BitVec 32) = FKind.add.neutral .f32 hφ) (k : Fin 16) :
    divf (exp (subf v47 (broadcastTo S16x1 (shapeCast S1x1 (multiReduction .maximumf [0] S1 v47 0xFF800000#32 hr hφ hmax) hc) hb)))
        (broadcastTo S16x1 (shapeCast S1x1 (multiReduction .add [0] S1
          (exp (subf v47 (broadcastTo S16x1 (shapeCast S1x1 (multiReduction .maximumf [0] S1 v47 0xFF800000#32 hr hφ hmax) hc) hb)))
          0x00000000#32 hr hφ hadd) hc) hb) (ix2 k (0 : Fin 1))
      = smax (fun k => v47 (ix2 k (0 : Fin 1))) k := by
  have hM : ∀ k : Fin 16, broadcastTo S16x1 (shapeCast S1x1 (multiReduction .maximumf [0] S1 v47 0xFF800000#32 hr hφ hmax) hc) hb (ix2 k (0 : Fin 1))
      = Finset.univ.fold max ⊥ (fun k : Fin 16 => v47 (ix2 k (0 : Fin 1))) := by
    intro k
    rw [broadcastTo_1b_ab_apply, shapeCast_a_a1_apply, Ideal.multiReduction_maximumf_single]
    exact congrArg₂ (fun b (f : Fin 16 → EReal) => Finset.univ.fold max b f) ofBits_negInf
      (funext fun k' => congrArg v47 (lift_row hr (0 : Fin 1) k'))
  have hE : ∀ k : Fin 16, exp (subf v47 (broadcastTo S16x1 (shapeCast S1x1 (multiReduction .maximumf [0] S1 v47 0xFF800000#32 hr hφ hmax) hc) hb)) (ix2 k (0 : Fin 1))
      = Ideal.exp (v47 (ix2 k (0 : Fin 1)) - Finset.univ.fold max ⊥ (fun k : Fin 16 => v47 (ix2 k (0 : Fin 1)))) := by
    intro k
    show Ideal.exp (v47 (ix2 k (0 : Fin 1)) - broadcastTo S16x1 (shapeCast S1x1 (multiReduction .maximumf [0] S1 v47 0xFF800000#32 hr hφ hmax) hc) hb (ix2 k (0 : Fin 1))) = _
    rw [hM]
  show Ideal.div (exp (subf v47 (broadcastTo S16x1 (shapeCast S1x1 (multiReduction .maximumf [0] S1 v47 0xFF800000#32 hr hφ hmax) hc) hb)) (ix2 k (0 : Fin 1)))
      (broadcastTo S16x1 (shapeCast S1x1 (multiReduction .add [0] S1
          (exp (subf v47 (broadcastTo S16x1 (shapeCast S1x1 (multiReduction .maximumf [0] S1 v47 0xFF800000#32 hr hφ hmax) hc) hb)))
          0x00000000#32 hr hφ hadd) hc) hb (ix2 k (0 : Fin 1))) = _
  rw [hE, broadcastTo_1b_ab_apply, shapeCast_a_a1_apply, Ideal.multiReduction_add_single]
  unfold smax
  refine congrArg (Ideal.div _) (Finset.sum_congr rfl fun (k' : Fin 16) _ => ?_)
  refine (congrArg _ (lift_row hr (0 : Fin 1) k')).trans ?_
  exact hE k'

/-- The stored column at channel `ch`, from the two accumulators read back and the five weight blocks: the pooled
    column, the hidden layer, the logits, the softmax and the expansion, composed. -/
theorem pay6_apply (v30 v33 : Vec Ideal S256x1 .f32) (x1 : Vec Ideal S512x256 .f32) (x2 : Vec Ideal S512x1 .f32)
    (x3 : Vec Ideal S16x512 .f32) (x4 : Vec Ideal S16x1 .f32) (x5 : Vec Ideal S256x16 .f32) (s : Fin 256 → EReal)
    (hs : ∀ c' : Fin 256, v30 (ix2 c' (0 : Fin 1)) * invHW + v33 (ix2 c' (0 : Fin 1)) = s c') (ch : Fin 256) :
    k0_pay6 (F := Ideal) v30 v33 x1 x2 x3 x4 x5 (ix3 (0 : Fin 1) ch (0 : Fin 1))
      = attn (hidR0 s (fun j c' => x1 (ix2 j c')) (fun j => x2 (ix2 j (0 : Fin 1))))
          (fun k j => x3 (ix2 k j)) (fun k => x4 (ix2 k (0 : Fin 1))) (fun k c' => x5 (ix2 c' k)) ch := by
  unfold k0_pay6 attn
  refine (shapeCast_ab_1ab_apply _ _ (0 : Fin 1) ch (0 : Fin 1)).trans ?_
  refine (scale_stage _ x5 _ ch).trans ?_
  refine congrArg (fun a => scale a _ ch) (funext fun k => ?_)
  refine (smax_stage _ _ _ _ _ _ _ k).trans ?_
  refine congrArg (fun l => smax l k) (funext fun k' => ?_)
  refine (logit_stage _ x3 x4 _ k').trans ?_
  refine congrArg (fun h => logit h _ _ k') (funext fun j => ?_)
  refine (hid_stage _ x1 x2 _ _ j).trans ?_
  refine congrArg (fun t => hidR0 t _ _ j) (funext fun c' => ?_)
  exact hs c'

variable {F : FTy → Type} [FloatOps F]

/-- What the one control case leaves in the output block: the stored column over the two accumulators as the point
    itself reset and updated them. -/
theorem out0_piece (c : Dev nD) (i : grid0.Coords) (arg2 : Memref sig .tc .vmem S1x256x896 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S16x512 .f32) (harg5 : arg5.IsWhole) (arg6 : Memref sig .tc .vmem S16x1 .f32) (harg6 : arg6.IsWhole) (arg7 : Memref sig .tc .vmem S256x16 .f32) (harg7 : arg7.IsWhole) (arg8 : Memref sig .tc .vmem S1x256x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i)
    (x0 : Vec F S1x256x896 .f32) (x1 : Vec F S512x256 .f32) (x2 : Vec F S512x1 .f32) (x3 : Vec F S16x512 .f32) (x4 : Vec F S16x1 .f32) (x5 : Vec F S256x16 .f32) :
    out0_A_6 (F := F) c i arg2 harg2 arg3 harg3 arg4 harg4 arg5 harg5 arg6 harg6 arg7 harg7 arg8 harg8 arg9 harg9 arg10 harg10 hc0 hc1 x0 x1 x2 x3 x4 x5
      = k0_pay6 (k0_pay4 x0 (k0_pay1 (F := F))) (k0_pay5 i x0 (k0_pay2 (F := F))) x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x256x896) hz3, View.ld_unit_zero (S := S512x256) hz2, View.ld_unit_zero (S := S512x1) hz2,
    View.ld_unit_zero (S := S16x512) hz2, View.ld_unit_zero (S := S16x1) hz2, View.ld_unit_zero (S := S256x16) hz2,
    View.ld_unit_zero (S := S256x1) hz2, View.readCov_unit_zero (S := S256x1) _ hz2]
  simp only [View.readCov_cons_toLoadRect]

end Pay

open Pay

theorem out0_apply (c : Dev nD) (i : grid0.Coords) (arg2 : Memref sig .tc .vmem S1x256x896 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S16x512 .f32) (harg5 : arg5.IsWhole) (arg6 : Memref sig .tc .vmem S16x1 .f32) (harg6 : arg6.IsWhole) (arg7 : Memref sig .tc .vmem S256x16 .f32) (harg7 : arg7.IsWhole) (arg8 : Memref sig .tc .vmem S1x256x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i)
    (x0 : Vec Ideal S1x256x896 .f32) (x1 : Vec Ideal S512x256 .f32) (x2 : Vec Ideal S512x1 .f32) (x3 : Vec Ideal S16x512 .f32) (x4 : Vec Ideal S16x1 .f32) (x5 : Vec Ideal S256x16 .f32) (ch : Fin 256) :
    out0_A_6 (F := Ideal) c i arg2 harg2 arg3 harg3 arg4 harg4 arg5 harg5 arg6 harg6 arg7 harg7 arg8 harg8 arg9 harg9 arg10 harg10 hc0 hc1 x0 x1 x2 x3 x4 x5
        (ix3 (0 : Fin 1) ch (0 : Fin 1))
      = attn (hidR0 (fun c' => poolPad (fun q => x0 (ix3 (0 : Fin 1) c' q))) (fun j c' => x1 (ix2 j c'))
              (fun j => x2 (ix2 j (0 : Fin 1))))
            (fun k j => x3 (ix2 k j)) (fun k => x4 (ix2 k (0 : Fin 1))) (fun k c' => x5 (ix2 c' k)) ch := by
  refine (congrFun (out0_piece (F := Ideal) c i arg2 harg2 arg3 harg3 arg4 harg4 arg5 harg5 arg6 harg6 arg7 harg7 arg8 harg8 arg9 harg9 arg10 harg10 hc0 hc1 x0 x1 x2 x3 x4 x5) (ix3 (0 : Fin 1) ch (0 : Fin 1))).trans ?_
  refine pay6_apply _ _ x1 x2 x3 x4 x5 _ (fun c' => ?_) ch
  rw [pay4_apply x0 c', pay5_apply i x0 c']
  rfl

/-- The streaming body's stored value at an index of its [1, 256, 896] block: the input entry times the channel's
    scale. -/
theorem out1_apply (y0 : Vec Ideal S1x256x896 .f32) (y1 : Vec Ideal S1x256x1 .f32) (ch : Fin 256) (q : Fin 896) :
    out1_2 (F := Ideal) y0 y1 (ix3 (0 : Fin 1) ch q) = y0 (ix3 (0 : Fin 1) ch q) * y1 (ix3 (0 : Fin 1) ch (0 : Fin 1)) := by
  unfold out1_2
  rw [View.canon_unit_zero hz3]
  simp only [View.ld_unit_zero (S := S1x256x896) hz3, View.ld_unit_zero (S := S1x256x1) hz3]
  unfold k1_pay1
  refine (shapeCast_ab_1ab_apply _ _ (0 : Fin 1) ch q).trans ?_
  rw [mulf_apply]
  refine congrArg₂ (· * ·) (shapeCast_1ab_ab_apply y0 _ ch q) ?_
  refine (broadcastTo_a1_ab_apply _ _ ch q).trans ?_
  exact shapeCast_1ab_ab_apply y1 _ ch (0 : Fin 1)

end Cert.GroupAtt.Ref

end
-- ==== Proof.RefHost.lean ====
/-
  The second program's host side. Before its first region: x flattened to [128, 256, 784] and padded with zeros to
  896 lanes; the weights w1 times the gain of their row; the offset column; the bias column. After its second region:
  the padding sliced off and the 784 positions unflattened to 28 × 28.
-/
import proofs.«148205_g2000704464797211_pallasbulk_780_16_alg».proof.Proof.Gen.ReferenceIdeal.Frame
import proofs.«148205_g2000704464797211_pallasbulk_780_16_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost

noncomputable section

namespace Cert.GroupAtt.Ref

open Idealize.ShloMosaic Idealize.ShloMosaic.ValueIdx Idealize.ShloMosaic.TcCoe Idealize.SL.Sem
open Cert.ReferenceIdeal Cert.ReferenceIdeal.Gen

variable (m : (ℓ : Loc nD τ sig) → Buf (Elt Ideal) ℓ) (ρ : Dev nD → PrngReg)

/-- The nine argument arrays as launched, at their literal types: x; w1; b1, gamma, beta, the running mean, the running
    variance; w2; b2. -/
abbrev aX (c : Dev nD) : FVec Ideal SX .f32 := m ((c.tc : Thread nD τ).loc main_arg0)
abbrev aW1 (c : Dev nD) : FVec Ideal SW1 .f32 := m ((c.tc : Thread nD τ).loc main_arg1)
abbrev aB1 (c : Dev nD) : FVec Ideal SV .f32 := m ((c.tc : Thread nD τ).loc main_arg2)
abbrev aGamma (c : Dev nD) : FVec Ideal SV .f32 := m ((c.tc : Thread nD τ).loc main_arg3)
abbrev aBeta (c : Dev nD) : FVec Ideal SV .f32 := m ((c.tc : Thread nD τ).loc main_arg4)
abbrev aRm (c : Dev nD) : FVec Ideal SV .f32 := m ((c.tc : Thread nD τ).loc main_arg5)
abbrev aRv (c : Dev nD) : FVec Ideal SV .f32 := m ((c.tc : Thread nD τ).loc main_arg6)
abbrev aW2 (c : Dev nD) : FVec Ideal SW2 .f32 := m ((c.tc : Thread nD τ).loc main_arg7)
abbrev aB2 (c : Dev nD) : FVec Ideal SB .f32 := m ((c.tc : Thread nD τ).loc main_arg8)

/-! ## The arrays the host operations leave, as terms over the arguments -/

/-- The padded x is the flattened x padded along its last axis with the converted integer zero. -/
theorem xpad_term (c : Dev nD) :
    (V4 m ρ c main_v22 : S128x256x896.Idx → EReal) =
      pad S128x256x896 ![0, 0, 0] ![0, 0, 112] ![0, 0, 0]
        (shapeCast S128x256x784 (aX m c) shapeCasts_S128x256x28x28_S128x256x784)
        (sitofp (F := Ideal) .f32 (constantI S_ 32 0#32)) pads_S128x256x784_S128x256x896_000_000_01120 h_S_ := by
  dsimp only [V4, W4, W3, W2, W1, W0]
  simp only [hostOps0, hostOps0_1, hostOps0_2, hostOps0_3]
  after_results <;> rfl

/-- The effective weights are w1 times the gain vector laid along every row. -/
theorem w1e_term (c : Dev nD) :
    (V4 m ρ c main_v6 : S512x256.Idx → EReal) =
      mulf (aW1 m c) (broadcastInDim S512x256 ![0, 1] bcast_S512x1_S512x256_0_1 (broadcastInDim S512x1 ![0] bcast_S512_S512x1_0
        (Host.divf (F := Ideal) (aGamma m c) (Host.sqrt (F := Ideal) (addf (aRv m c)
          (broadcastInDim S512 ![] bcast_S_S512 (constant (F := Ideal) S_ .f32 0x3727C5AC#32))))))) := by
  dsimp only [V4, W4, W3, W2, W1, W0]
  simp only [hostOps0, hostOps0_1, hostOps0_2, hostOps0_3]
  after_results <;> rfl

/-- The offset column is the vector gain · (b1 − running mean) + beta, reshaped to a column. -/
theorem b1e_term (c : Dev nD) :
    (V4 m ρ c main_v10 : S512x1.Idx → EReal) =
      shapeCast S512x1 (addf (mulf (Host.divf (F := Ideal) (aGamma m c) (Host.sqrt (F := Ideal) (addf (aRv m c)
          (broadcastInDim S512 ![] bcast_S_S512 (constant (F := Ideal) S_ .f32 0x3727C5AC#32)))))
        (subf (aB1 m c) (aRm m c))) (aBeta m c)) shapeCasts_S512_S512x1 := by
  dsimp only [V4, W4, W3, W2, W1, W0]
  simp only [hostOps0, hostOps0_1, hostOps0_2, hostOps0_3]
  after_results <;> rfl

/-- The bias column is b2 reshaped to a column. -/
theorem b2c_term (c : Dev nD) :
    (V4 m ρ c main_v11 : S16x1.Idx → EReal) = shapeCast S16x1 (aB2 m c) shapeCasts_S16_S16x1 := by
  dsimp only [V4, W4, W3, W2, W1, W0]
  simp only [hostOps0, hostOps0_1, hostOps0_2, hostOps0_3]
  after_results <;> rfl

/-- The result is the second region's output sliced to its first 784 lanes and unflattened. -/
theorem tail_term (c : Dev nD) :
    (W7 m ρ c (Proc.devRef .tc main_v26) : S128x256x28x28.Idx → EReal) =
      shapeCast S128x256x28x28
        (extractStridedSlice S128x256x784 ![0, 0, 0] (W6 m ρ c (Proc.devRef .tc main_v24) : S128x256x896.Idx → EReal)
          slices_S128x256x896_S128x256x784_0_0_0) shapeCasts_S128x256x784_S128x256x28x28 := by
  dsimp only [W7]
  simp only [hostOps2]
  after_results <;> rfl

/-! ## Those terms read at an index -/

/-- The gain as the host computes it — gamma over the square root of the running variance plus ε — entry by entry. -/
theorem gainVec_apply (gamma rv : FVec Ideal SV .f32) (j : Fin 512) :
    Host.divf (F := Ideal) gamma (Host.sqrt (F := Ideal) (addf rv
        (broadcastInDim S512 ![] bcast_S_S512 (constant (F := Ideal) S_ .f32 0x3727C5AC#32)))) (ix1 j)
      = gain gamma rv j := by
  rw [hostDivf_apply]
  unfold gain bnEps
  rfl

/-- A vector of n entries reshaped to a column reads, at (j, 0), entry j. -/
theorem shapeCast_col_apply {n : ℕ} {α : Type} (x : (⟨1, ![n]⟩ : Shape).Idx → α)
    (h : (⟨1, ![n]⟩ : Shape).ShapeCasts ⟨2, ![n, 1]⟩) (j : Fin n) (u : Fin 1) :
    shapeCast ⟨2, ![n, 1]⟩ x h (ix2 j u) = x (ix1 j) :=
  shapeCast_apply x h _ _ (by
    have hu : u.val = 0 := by omega
    rw [Shape.rowMajor_val_two, Shape.rowMajor_val_one]
    show j.val = j.val * 1 + u.val
    rw [hu, Nat.mul_one, Nat.add_zero])

/-- x flattened over its last two axes reads, at (b, ch, p), the fibre of (b, ch) at position p: the row-major
    position ((b · 256 + ch) · 28 + p / 28) · 28 + p % 28 is (b · 256 + ch) · 784 + p. -/
theorem flat_apply (x : FVec Ideal SX .f32) (b : Fin 128) (ch : Fin 256) (p : Fin 784) :
    shapeCast S128x256x784 x shapeCasts_S128x256x28x28_S128x256x784 (ix3 b ch p) = fibre x b ch p := by
  unfold fibre
  refine shapeCast_apply x _ _ _ ?_
  rw [Shape.rowMajor_val_four, Shape.rowMajor_val_three]
  show ((b.val * 256 + ch.val) * 28 + p.val / 28) * 28 + p.val % 28 = (b.val * 256 + ch.val) * 784 + p.val
  omega

/-- The flattened x padded by 112 lanes of the converted integer zero: the fibre below lane 784, zero from there on. -/
theorem padded_apply (x : FVec Ideal SX .f32) (b : Fin 128) (ch : Fin 256) (q : Fin 896) :
    pad S128x256x896 ![0, 0, 0] ![0, 0, 112] ![0, 0, 0]
        (shapeCast S128x256x784 x shapeCasts_S128x256x28x28_S128x256x784)
        (sitofp (F := Ideal) .f32 (constantI S_ 32 0#32)) pads_S128x256x784_S128x256x896_000_000_01120 h_S_ (ix3 b ch q)
      = if h : q.val < 784 then fibre x b ch ⟨q.val, h⟩ else 0 := by
  by_cases h : q.val < 784
  · rw [dif_pos h]
    refine (pad_apply_of_inside (s := S128x256x784) (t := S128x256x896) ![0, 0, 0] ![0, 0, 112] ![0, 0, 0] _ _
      pads_S128x256x784_S128x256x896_000_000_01120 h_S_ (ix3 b ch q) (ix3 b ch (⟨q.val, h⟩ : Fin 784)) ?_).trans ?_
    · intro a
      match a with
      | ⟨0, _⟩ => show b.val = 0 + b.val * (0 + 1); omega
      | ⟨1, _⟩ => show ch.val = 0 + ch.val * (0 + 1); omega
      | ⟨2, _⟩ => show q.val = 0 + q.val * (0 + 1); omega
    exact flat_apply x b ch ⟨q.val, h⟩
  · rw [dif_neg h]
    refine (pad_apply_of_not_inside (s := S128x256x784) (t := S128x256x896) ![0, 0, 0] ![0, 0, 112] ![0, 0, 0] _ _
      pads_S128x256x784_S128x256x896_000_000_01120 h_S_ (ix3 b ch q) (2 : Fin 3) ?_).trans ?_
    · show ¬(0 ≤ q.val ∧ (q.val - 0) % (0 + 1) = 0 ∧ (q.val - 0) / (0 + 1) < 784)
      omega
    -- the padding value: the integer zero converted to a float is the extended real zero
    show ((((0#32 : BitVec 32).toInt : ℤ) : ℝ) : EReal) = 0
    simp

/-- An array of 896 lanes sliced to its first 784 and unflattened to 28 × 28 reads, at (b, ch, hh, ww), lane 28 · hh + ww. -/
theorem unflat_apply {α : Type} (y : S128x256x896.Idx → α) (b : Fin 128) (ch : Fin 256) (hh ww : Fin 28) :
    shapeCast S128x256x28x28 (extractStridedSlice S128x256x784 ![0, 0, 0] y slices_S128x256x896_S128x256x784_0_0_0)
        shapeCasts_S128x256x784_S128x256x28x28 (ix4 b ch hh ww)
      = y (ix3 b ch (⟨28 * hh.val + ww.val, by have := hh.isLt; have := ww.isLt; omega⟩ : Fin 896)) := by
  have hlt : 28 * hh.val + ww.val < 784 := by have := hh.isLt; have := ww.isLt; omega
  refine (shapeCast_apply _ shapeCasts_S128x256x784_S128x256x28x28 (ix4 b ch hh ww)
    (ix3 b ch (⟨28 * hh.val + ww.val, hlt⟩ : Fin 784)) ?_).trans ?_
  · rw [Shape.rowMajor_val_four, Shape.rowMajor_val_three]
    show (b.val * 256 + ch.val) * 784 + (28 * hh.val + ww.val) = ((b.val * 256 + ch.val) * 28 + hh.val) * 28 + ww.val
    omega
  refine extractStridedSlice_apply (s := S128x256x896) (t := S128x256x784) ![0, 0, 0] y
    slices_S128x256x896_S128x256x784_0_0_0 _ _ ?_
  intro a
  match a with
  | ⟨0, _⟩ => show b.val = 0 + b.val; omega
  | ⟨1, _⟩ => show ch.val = 0 + ch.val; omega
  | ⟨2, _⟩ => show 28 * hh.val + ww.val = 0 + (28 * hh.val + ww.val); omega

/-! ## The six reads -/

/-- The first region is entered with x flattened and padded with zeros. -/
theorem xpad_apply (c : Dev nD) (b : Fin 128) (ch : Fin 256) (q : Fin 896) :
    V4 m ρ c main_v22 (ix3 b ch q)
      = if h : q.val < 784 then fibre (aX m c) b ch ⟨q.val, h⟩ else 0 :=
  (congrFun (xpad_term m ρ c) (ix3 b ch q)).trans (padded_apply (aX m c) b ch q)

/-- … with the weights carrying the gain of their row, -/
theorem w1e_apply (c : Dev nD) (j : Fin 512) (c' : Fin 256) :
    V4 m ρ c main_v6 (ix2 j c') = (aW1 m c) (ix2 j c') * gain (aGamma m c) (aRv m c) j := by
  refine (congrFun (w1e_term m ρ c) (ix2 j c')).trans ?_
  rw [mulf_apply]
  congr 1
  refine (broadcastInDim_apply (s := S512x1) (t := S512x256) ![0, 1] bcast_S512x1_S512x256_0_1 _ (ix2 j c')
    (ix2 j (0 : Fin 1)) ?_).trans ?_
  · intro a
    match a with
    | ⟨0, _⟩ => rfl
    | ⟨1, _⟩ => rfl
  refine (broadcastInDim_apply (s := S512) (t := S512x1) ![0] bcast_S512_S512x1_0 _ (ix2 j (0 : Fin 1)) (ix1 j) ?_).trans ?_
  · intro a
    match a with
    | ⟨0, _⟩ => rfl
  exact gainVec_apply _ _ j

/-- … the offset as a column, -/
theorem b1e_apply (c : Dev nD) (j : Fin 512) :
    V4 m ρ c main_v10 (ix2 j (0 : Fin 1)) = shift (aGamma m c) (aRv m c) (aB1 m c) (aRm m c) (aBeta m c) j := by
  refine (congrFun (b1e_term m ρ c) (ix2 j (0 : Fin 1))).trans ?_
  refine (shapeCast_col_apply _ shapeCasts_S512_S512x1 j 0).trans ?_
  rw [addf_apply, mulf_apply, subf_apply, gainVec_apply]
  rfl

/-- … the second layer's weights as launched, -/
theorem w2_eq (c : Dev nD) : V4 m ρ c main_arg7 = (aW2 m c) := by
  dsimp only [V4, W4, W3, W2, W1, W0]
  simp only [hostOps0, hostOps0_1, hostOps0_2, hostOps0_3]
  after_results <;> rfl

/-- … and its bias as a column. -/
theorem b2c_apply (c : Dev nD) (k : Fin 16) :
    V4 m ρ c main_v11 (ix2 k (0 : Fin 1)) = (aB2 m c) (ix1 k) :=
  (congrFun (b2c_term m ρ c) (ix2 k (0 : Fin 1))).trans (shapeCast_col_apply _ shapeCasts_S16_S16x1 k 0)

/-- After the second region the result is its output with the padding sliced off and the positions unflattened. -/
theorem tail_apply (c : Dev nD) (b : Fin 128) (ch : Fin 256) (hh ww : Fin 28) :
    W7 m ρ c (Proc.devRef .tc main_v26) (ix4 b ch hh ww)
      = W6 m ρ c (Proc.devRef .tc main_v24) (ix3 b ch (⟨28 * hh.val + ww.val, by have := hh.isLt; have := ww.isLt; omega⟩ : Fin 896)) :=
  (congrFun (tail_term m ρ c) (ix4 b ch hh ww)).trans (unflat_apply _ b ch hh ww)

end Cert.GroupAtt.Ref

end
-- ==== Proof.RefValue.lean ====
/-
  The second program's result array. Its first region writes, for each batch element b, the [256, 1] column of
  channel scales (gain folded into the weights); its second region multiplies each padded fibre by its channel's
  scale; the slice and reshape after it keep the first 784 lanes as 28 × 28 positions.
-/
import proofs.«148205_g2000704464797211_pallasbulk_780_16_alg».proof.Proof.Gen.ReferenceIdeal.Frame
import proofs.«148205_g2000704464797211_pallasbulk_780_16_alg».proof.Proof.Spec
import proofs.«148205_g2000704464797211_pallasbulk_780_16_alg».proof.Proof.Algebra
import proofs.«148205_g2000704464797211_pallasbulk_780_16_alg».proof.Proof.Mask
import proofs.«148205_g2000704464797211_pallasbulk_780_16_alg».proof.Proof.RefPayload
import proofs.«148205_g2000704464797211_pallasbulk_780_16_alg».proof.Proof.RefHost
import proofs.«148205_g2000704464797211_pallasbulk_780_16_alg».proof.Proof.RefRun
import Idealize.ShloMosaic.Lib.ValueIdx
import Idealize.ShloMosaic.Lib.ValueLayout
import Idealize.ShloMosaic.Lib.Pipeline.Value

noncomputable section

namespace Cert.GroupAtt.Ref

open Idealize.ShloMosaic Idealize.ShloMosaic.ValueIdx Idealize.ShloMosaic.TcCoe Idealize.SL.Sem
open Cert.ReferenceIdeal Cert.ReferenceIdeal.Gen

variable (m : (ℓ : Loc nD τ sig) → Buf (Elt Ideal) ℓ) (ρ : Dev nD → PrngReg)

namespace Arrays

/-! ## One grid point of the first region, as mathematics

The body's value at channel ch is stated over its six input blocks. When the first block holds batch element b's
fibres padded with zeros, the second the weights times their row's gain, the third the offsets, the fourth and
fifth the second layer's weights and bias and the sixth the membership matrix, that value is the channel scale with
the gain folded into the weights. -/

/-- The attention value computed from the blocks of one grid point is the channel scale of batch element b: the
    padded pooling of a zero-padded fibre is the pooling of the fibre, and weights that carry the gain are the
    folded arrangement of the hidden layer by definition. -/
theorem scale_of_blocks (x : FVec Ideal SX .f32) (w1 : FVec Ideal SW1 .f32)
    (b1 gamma beta rm rv : FVec Ideal SV .f32) (w2 : FVec Ideal SW2 .f32) (b2 : FVec Ideal SB .f32) (b : Fin 128)
    (x0 : Vec Ideal S1x256x896 .f32) (x1 : Vec Ideal S512x256 .f32) (x2 : Vec Ideal S512x1 .f32)
    (x3 : Vec Ideal S16x512 .f32) (x4 : Vec Ideal S16x1 .f32) (x5 : Vec Ideal S256x16 .f32)
    (h0 : ∀ (c' : Fin 256) (q : Fin 896),
      x0 (ix3 (0 : Fin 1) c' q) = if h : q.val < 784 then fibre x b c' ⟨q.val, h⟩ else 0)
    (h1 : ∀ (j : Fin 512) (c' : Fin 256), x1 (ix2 j c') = w1 (ix2 j c') * gain gamma rv j)
    (h2 : ∀ j : Fin 512, x2 (ix2 j (0 : Fin 1)) = shift gamma rv b1 rm beta j)
    (h3 : x3 = w2)
    (h4 : ∀ k : Fin 16, x4 (ix2 k (0 : Fin 1)) = b2 (ix1 k))
    (h5 : x5 = Mask.EArr) (ch : Fin 256) :
    attn (hidR0 (fun c' => poolPad (fun q => x0 (ix3 (0 : Fin 1) c' q))) (fun j c' => x1 (ix2 j c'))
              (fun j => x2 (ix2 j (0 : Fin 1))))
            (fun k j => x3 (ix2 k j)) (fun k => x4 (ix2 k (0 : Fin 1))) (fun k c' => x5 (ix2 c' k)) ch
      = scaleR (fun k ch => Mask.EArr (ix2 ch k)) x w1 b1 gamma beta rm rv w2 b2 b ch := by
  subst h3 h5
  have hp : (fun c' : Fin 256 => poolPad (fun q => x0 (ix3 (0 : Fin 1) c' q))) = fun c' => pool (fibre x b c') := by
    funext c'
    rw [poolPad_eq _ (fun q hq => by rw [h0]; exact dif_neg (by omega))]
    congr 1
    funext p
    rw [h0]
    exact dif_pos p.isLt
  have hw : (fun (j : Fin 512) (c' : Fin 256) => x1 (ix2 j c')) = fun j c' => w1 (ix2 j c') * gain gamma rv j := by
    funext j c'; exact h1 j c'
  have hb : (fun j : Fin 512 => x2 (ix2 j (0 : Fin 1))) = shift gamma rv b1 rm beta := funext h2
  have hk : (fun k : Fin 16 => x4 (ix2 k (0 : Fin 1))) = fun k => b2 (ix1 k) := funext h4
  rw [hp, hw, hb, hk]
  rfl

/-! ## The first region's blocks

The grid is 128 × 1, point t standing for batch element t. The padded input and the scale output move with the batch
element (block index (t, 0, 0)); the five other operands are whole arrays (block index (0, 0)). -/

/-- The block indices of the first region's seven windows at every grid point. -/
theorem idx0 : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

section Blocks0
variable (V : (c : Dev nD) → (b : Ref sig .tc) → Buf (Elt Ideal) ((c : Thread nD τ).loc b))

/-- The padded input's block at point t is row t of the [128, 256, 896] array. -/
theorem blk0_0 (c : Dev nD) (t : Fin cfg0.N) (b : Fin 128) (hb : b.val = t.val) (c' : Fin 256) (q : Fin 896) :
    (iblk0 V c 0 t : Vec Ideal S1x256x896 .f32) (ix3 (0 : Fin 1) c' q)
      = (V c main_v22 : Vec Ideal S128x256x896 .f32) (ix3 b c' q) := by
  obtain ⟨e0, e1, e2, -⟩ := idx0 t
  unfold iblk0
  rw [View.read_apply]
  show (V c main_v22 : Vec Ideal S128x256x896 .f32) _ = _
  congr 1
  funext a; apply Fin.ext
  match a with
  | ⟨0, _⟩ => show win0_0.index t (0 : Fin 3) * 1 + 1 * (0 : Fin 1).val = b.val; rw [e0, hb]; simp
  | ⟨1, _⟩ => show win0_0.index t (1 : Fin 3) * 256 + 1 * c'.val = c'.val; rw [e1]; omega
  | ⟨2, _⟩ => show win0_0.index t (2 : Fin 3) * 896 + 1 * q.val = q.val; rw [e2]; omega

/-- The gain-carrying weights' block is the whole [512, 256] array at every point. -/
theorem blk0_1 (c : Dev nD) (t : Fin cfg0.N) : (iblk0 V c 1 t : Vec Ideal S512x256 .f32) = V c main_v6 := by
  obtain ⟨-, -, -, -, -, -, e0, e1, -⟩ := idx0 t
  funext y
  unfold iblk0
  rw [View.read_apply]
  show (V c main_v6 : Vec Ideal S512x256 .f32) _ = _
  congr 1
  funext a; apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

/-- The offset column's block is the whole [512, 1] array at every point. -/
theorem blk0_2 (c : Dev nD) (t : Fin cfg0.N) : (iblk0 V c 2 t : Vec Ideal S512x1 .f32) = V c main_v10 := by
  obtain ⟨-, -, -, -, -, -, -, -, e0, e1, -⟩ := idx0 t
  funext y
  unfold iblk0
  rw [View.read_apply]
  show (V c main_v10 : Vec Ideal S512x1 .f32) _ = _
  congr 1
  funext a; apply Fin.ext
  match a with
  | ⟨0, _⟩ => show win0_2.index t (0 : Fin 2) * 512 + 1 * (y 0).val = (y 0).val; rw [e0]; omega
  | ⟨1, _⟩ => show win0_2.index t (1 : Fin 2) * 1 + 1 * (y 1).val = (y 1).val; rw [e1]; omega

/-- The second layer's weights' block is the whole [16, 512] array at every point. -/
theorem blk0_3 (c : Dev nD) (t : Fin cfg0.N) : (iblk0 V c 3 t : Vec Ideal S16x512 .f32) = V c main_arg7 := by
  obtain ⟨-, -, -, -, -, -, -, -, -, -, e0, e1, -⟩ := idx0 t
  funext y
  unfold iblk0
  rw [View.read_apply]
  show (V c main_arg7 : Vec Ideal S16x512 .f32) _ = _
  congr 1
  funext a; apply Fin.ext
  match a with
  | ⟨0, _⟩ => show win0_3.index t (0 : Fin 2) * 16 + 1 * (y 0).val = (y 0).val; rw [e0]; omega
  | ⟨1, _⟩ => show win0_3.index t (1 : Fin 2) * 512 + 1 * (y 1).val = (y 1).val; rw [e1]; omega

/-- The bias column's block is the whole [16, 1] array at every point. -/
theorem blk0_4 (c : Dev nD) (t : Fin cfg0.N) : (iblk0 V c 4 t : Vec Ideal S16x1 .f32) = V c main_v11 := by
  obtain ⟨-, -, -, -, -, -, -, -, -, -, -, -, e0, e1, -⟩ := idx0 t
  funext y
  unfold iblk0
  rw [View.read_apply]
  show (V c main_v11 : Vec Ideal S16x1 .f32) _ = _
  congr 1
  funext a; apply Fin.ext
  match a with
  | ⟨0, _⟩ => show win0_4.index t (0 : Fin 2) * 16 + 1 * (y 0).val = (y 0).val; rw [e0]; omega
  | ⟨1, _⟩ => show win0_4.index t (1 : Fin 2) * 1 + 1 * (y 1).val = (y 1).val; rw [e1]; omega

/-- The membership matrix's block is the whole [256, 16] array at every point. -/
theorem blk0_5 (c : Dev nD) (t : Fin cfg0.N) : (iblk0 V c 5 t : Vec Ideal S256x16 .f32) = V c main_v20 := by
  obtain ⟨-, -, -, -, -, -, -, -, -, -, -, -, -, -, e0, e1⟩ := idx0 t
  funext y
  unfold iblk0
  rw [View.read_apply]
  show (V c main_v20 : Vec Ideal S256x16 .f32) _ = _
  congr 1
  funext a; apply Fin.ext
  match a with
  | ⟨0, _⟩ => show win0_5.index t (0 : Fin 2) * 256 + 1 * (y 0).val = (y 0).val; rw [e0]; omega
  | ⟨1, _⟩ => show win0_5.index t (1 : Fin 2) * 16 + 1 * (y 1).val = (y 1).val; rw [e1]; omega

end Blocks0

/-! ## The first region's output: the [128, 256, 1] array of channel scales -/

/-- The array of channel scales: at (b, ch, 0) the scale of channel ch of batch element b, the gain folded into the
    weights. -/
def scales (c : Dev nD) : FVec Ideal S128x256x1 .f32 := fun i =>
  scaleR (fun k ch => Mask.EArr (ix2 ch k)) (aX m c) (aW1 m c) (aB1 m c) (aGamma m c) (aBeta m c) (aRm m c) (aRv m c)
    (aW2 m c) (aB2 m c) (i 0) (i 1)

/-- What the body leaves at channel ch of its output block at point t is entry (t, ch, 0) of the scale array. -/
theorem out_point (c : Dev nD) (t : Fin cfg0.N) (ch : Fin 256) (b : Fin 128) (hb : b.val = t.val) :
    outsAt0 (V4 m ρ) c t (ix3 (0 : Fin 1) ch (0 : Fin 1)) = scales m c (ix3 b ch (0 : Fin 1)) := by
  unfold outsAt0
  refine (out0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (hcond0_0 t) (hcond0_1 t) (iblk0 (V4 m ρ) c 0 t) (iblk0 (V4 m ρ) c 1 t) (iblk0 (V4 m ρ) c 2 t) (iblk0 (V4 m ρ) c 3 t) (iblk0 (V4 m ρ) c 4 t) (iblk0 (V4 m ρ) c 5 t) ch).trans ?_
  exact scale_of_blocks (aX m c) (aW1 m c) (aB1 m c) (aGamma m c) (aBeta m c) (aRm m c) (aRv m c) (aW2 m c) (aB2 m c) b
    (iblk0 (V4 m ρ) c 0 t) (iblk0 (V4 m ρ) c 1 t) (iblk0 (V4 m ρ) c 2 t) (iblk0 (V4 m ρ) c 3 t) (iblk0 (V4 m ρ) c 4 t) (iblk0 (V4 m ρ) c 5 t)
    (fun c' q => (blk0_0 (V4 m ρ) c t b hb c' q).trans (xpad_apply m ρ c b c' q))
    (fun j c' => (congrFun (blk0_1 (V4 m ρ) c t) (ix2 j c')).trans (w1e_apply m ρ c j c'))
    (fun j => (congrFun (blk0_2 (V4 m ρ) c t) (ix2 j (0 : Fin 1))).trans (b1e_apply m ρ c j))
    ((blk0_3 (V4 m ρ) c t).trans (w2_eq m ρ c))
    (fun k => (congrFun (blk0_4 (V4 m ρ) c t) (ix2 k (0 : Fin 1))).trans (b2c_apply m ρ c k))
    ((blk0_5 (V4 m ρ) c t).trans (Mask.ref_mask m ρ c)) ch

/-- What point t writes back is block t of the scale array: the [1, 256, 1] block at (t, 0, 0). -/
theorem flushed0 (c : Dev nD) (t : Fin cfg0.N) :
    (dat0 (V4 m ρ) c).flushed 6 t = ((cfg0.win 6).blk t).view.read (Elt Ideal) (scales m c) := by
  show (cfg0.win 6).cut (grid0.coords t) ((dat0 (V4 m ρ) c).after 6 t) = _
  rw [after0_6]
  obtain ⟨-, -, -, e0, e1, e2, -⟩ := idx0 t
  funext j
  have ht : t.val < 128 := lt_of_lt_of_eq t.isLt N_0
  have h0 : (j 0).val < 1 := (j 0).isLt
  have h1 : (j 1).val < 256 := (j 1).isLt
  have h2 : (j 2).val < 1 := (j 2).isLt
  have hx : (cfg0.win 6).xinj (grid0.coords t) j = ix3 (0 : Fin 1) (⟨(j 1).val, h1⟩ : Fin 256) (0 : Fin 1) := by
    funext a; apply Fin.ext
    match a with
    | ⟨0, _⟩ => show (j 0).val = 0; omega
    | ⟨1, _⟩ => rfl
    | ⟨2, _⟩ => show (j 2).val = 0; omega
  have he : ((cfg0.win 6).blk t).view.emb j = ix3 (⟨t.val, ht⟩ : Fin 128) (⟨(j 1).val, h1⟩ : Fin 256) (0 : Fin 1) := by
    funext a; apply Fin.ext
    match a with
    | ⟨0, _⟩ => show win0_6.index t (0 : Fin 3) * 1 + 1 * (j 0).val = t.val; rw [e0]; omega
    | ⟨1, _⟩ => show win0_6.index t (1 : Fin 3) * 256 + 1 * (j 1).val = (j 1).val; rw [e1]; omega
    | ⟨2, _⟩ => show win0_6.index t (2 : Fin 3) * 1 + 1 * (j 2).val = 0; rw [e2]; omega
  show outsAt0 (V4 m ρ) c t ((cfg0.win 6).xinj (grid0.coords t) j) = scales m c (((cfg0.win 6).blk t).view.emb j)
  rw [hx, he]
  exact out_point m ρ c t _ _ rfl

/-- An index of the [128, 256, 1] array lies in point t's block iff each coordinate lies in the block's range. -/
theorem mem_blk0 (t : Fin cfg0.N) (i : S128x256x1.Idx) :
    i ∈ ((cfg0.win 6).blk t).view.set ↔ ∀ a : Fin 3, win0_6.index t a * S1x256x1.size a ≤ (i a).val ∧ (i a).val < win0_6.index t a * S1x256x1.size a + S1x256x1.size a := by
  show i ∈ ((View.whole main_v23).slice (win0_6.rect t)).set ↔ _
  rw [View.set_slice_whole, Rect.mem_set_unit]
  exact Iff.rfl

/-- The 128 blocks cover the array (index (b, ch, 0) lies in point b's block), so it ends holding the scales. -/
theorem scales_final (c : Dev nD) : (dat0 (V4 m ρ) c).arrAt 6 cfg0.N = scales m c :=
  (dat0 (V4 m ρ) c).arrAt_eq_of_cover 6 (scales m c) (fun t _ => flushed0 m ρ c t) fun i => by
    have hi0 : (i 0).val < 128 := (i 0).isLt
    have hi1 : (i 1).val < 256 := (i 1).isLt
    have hi2 : (i 2).val < 1 := (i 2).isLt
    have hN : cfg0.N = 128 := N_0
    obtain ⟨t, ht⟩ : ∃ t : Fin cfg0.N, t.val = (i 0).val := ⟨⟨(i 0).val, by omega⟩, rfl⟩
    refine ⟨t, flush0_6 t, ?_⟩
    rw [mem_blk0]
    obtain ⟨-, -, -, e0, e1, e2, -⟩ := idx0 t
    intro a
    match a with
    | ⟨0, _⟩ => show win0_6.index t (0 : Fin 3) * 1 ≤ (i 0).val ∧ (i 0).val < win0_6.index t (0 : Fin 3) * 1 + 1; rw [e0]; omega
    | ⟨1, _⟩ => show win0_6.index t (1 : Fin 3) * 256 ≤ (i 1).val ∧ (i 1).val < win0_6.index t (1 : Fin 3) * 256 + 256; rw [e1]; omega
    | ⟨2, _⟩ => show win0_6.index t (2 : Fin 3) * 1 ≤ (i 2).val ∧ (i 2).val < win0_6.index t (2 : Fin 3) * 1 + 1; rw [e2]; omega

/-- The second region is entered with the scale array holding the scales, -/
theorem entry1_scales (c : Dev nD) : V5 m ρ c main_v23 = scales m c :=
  (W5_arr m ρ c 6).trans (scales_final m ρ c)

/-- … and with the padded array as the first region found it: the first region only reads it. -/
theorem entry1_padded (c : Dev nD) : V5 m ρ c main_v22 = V4 m ρ c main_v22 :=
  (W5_arr m ρ c 0).trans (((dat0 (V4 m ρ) c).arrAt_in 0 rfl _).trans (A_eq0 (V4 m ρ) c 0))

/-! ## The second region: each padded fibre times its channel's scale -/

/-- The block indices of the second region's three windows at every grid point: all move with the batch element. -/
theorem idx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

section Blocks1
variable (V : (c : Dev nD) → (b : Ref sig .tc) → Buf (Elt Ideal) ((c : Thread nD τ).loc b))

/-- The padded input's block at point t is row t of the [128, 256, 896] array. -/
theorem blk1_0 (c : Dev nD) (t : Fin cfg1.N) (b : Fin 128) (hb : b.val = t.val) (ch : Fin 256) (q : Fin 896) :
    (iblk1 V c 0 t : Vec Ideal S1x256x896 .f32) (ix3 (0 : Fin 1) ch q)
      = (V c main_v22 : Vec Ideal S128x256x896 .f32) (ix3 b ch q) := by
  obtain ⟨e0, e1, e2, -⟩ := idx1 t
  unfold iblk1
  rw [View.read_apply]
  show (V c main_v22 : Vec Ideal S128x256x896 .f32) _ = _
  congr 1
  funext a; apply Fin.ext
  match a with
  | ⟨0, _⟩ => show win1_0.index t (0 : Fin 3) * 1 + 1 * (0 : Fin 1).val = b.val; rw [e0, hb]; simp
  | ⟨1, _⟩ => show win1_0.index t (1 : Fin 3) * 256 + 1 * ch.val = ch.val; rw [e1]; omega
  | ⟨2, _⟩ => show win1_0.index t (2 : Fin 3) * 896 + 1 * q.val = q.val; rw [e2]; omega

/-- The scale input's block at point t is row t of the [128, 256, 1] array. -/
theorem blk1_1 (c : Dev nD) (t : Fin cfg1.N) (b : Fin 128) (hb : b.val = t.val) (ch : Fin 256) :
    (iblk1 V c 1 t : Vec Ideal S1x256x1 .f32) (ix3 (0 : Fin 1) ch (0 : Fin 1))
      = (V c main_v23 : Vec Ideal S128x256x1 .f32) (ix3 b ch (0 : Fin 1)) := by
  obtain ⟨-, -, -, e0, e1, e2, -⟩ := idx1 t
  unfold iblk1
  rw [View.read_apply]
  show (V c main_v23 : Vec Ideal S128x256x1 .f32) _ = _
  congr 1
  funext a; apply Fin.ext
  match a with
  | ⟨0, _⟩ => show win1_1.index t (0 : Fin 3) * 1 + 1 * (0 : Fin 1).val = b.val; rw [e0, hb]; simp
  | ⟨1, _⟩ => show win1_1.index t (1 : Fin 3) * 256 + 1 * ch.val = ch.val; rw [e1]; omega
  | ⟨2, _⟩ => show win1_1.index t (2 : Fin 3) * 1 + 1 * (0 : Fin 1).val = (0 : Fin 1).val; rw [e2]; omega

end Blocks1

/-- The padded array the first region is entered with, at its literal type. -/
abbrev padded (c : Dev nD) : FVec Ideal S128x256x896 .f32 := V4 m ρ c main_v22

/-- The second region's output: every lane of every padded fibre times its channel's scale. -/
def scaled (c : Dev nD) : FVec Ideal S128x256x896 .f32 := fun i =>
  padded m ρ c i * scales m c (ix3 (i 0 : Fin 128) (i 1 : Fin 256) (0 : Fin 1))

/-- What point t writes back is block t of the scaled array: the [1, 256, 896] block at (t, 0, 0). -/
theorem flushed1 (c : Dev nD) (t : Fin cfg1.N) :
    (dat1 (V5 m ρ) c).flushed 2 t = ((cfg1.win 2).blk t).view.read (Elt Ideal) (scaled m ρ c) := by
  show (cfg1.win 2).cut (grid1.coords t) ((dat1 (V5 m ρ) c).after 2 t) = _
  rw [after1_2]
  obtain ⟨-, -, -, -, -, -, e0, e1, e2⟩ := idx1 t
  funext j
  have ht : t.val < 128 := lt_of_lt_of_eq t.isLt N_1
  have h0 : (j 0).val < 1 := (j 0).isLt
  have h1 : (j 1).val < 256 := (j 1).isLt
  have h2 : (j 2).val < 896 := (j 2).isLt
  have hx : (cfg1.win 2).xinj (grid1.coords t) j = ix3 (0 : Fin 1) (⟨(j 1).val, h1⟩ : Fin 256) (⟨(j 2).val, h2⟩ : Fin 896) := by
    funext a; apply Fin.ext
    match a with
    | ⟨0, _⟩ => show (j 0).val = 0; omega
    | ⟨1, _⟩ => rfl
    | ⟨2, _⟩ => rfl
  have he : ((cfg1.win 2).blk t).view.emb j = ix3 (⟨t.val, ht⟩ : Fin 128) (⟨(j 1).val, h1⟩ : Fin 256) (⟨(j 2).val, h2⟩ : Fin 896) := by
    funext a; apply Fin.ext
    match a with
    | ⟨0, _⟩ => show win1_2.index t (0 : Fin 3) * 1 + 1 * (j 0).val = t.val; rw [e0]; omega
    | ⟨1, _⟩ => show win1_2.index t (1 : Fin 3) * 256 + 1 * (j 1).val = (j 1).val; rw [e1]; omega
    | ⟨2, _⟩ => show win1_2.index t (2 : Fin 3) * 896 + 1 * (j 2).val = (j 2).val; rw [e2]; omega
  show out1_2 (iblk1 (V5 m ρ) c 0 t) (iblk1 (V5 m ρ) c 1 t) ((cfg1.win 2).xinj (grid1.coords t) j) = scaled m ρ c (((cfg1.win 2).blk t).view.emb j)
  rw [hx, he]
  refine (out1_apply (iblk1 (V5 m ρ) c 0 t) (iblk1 (V5 m ρ) c 1 t) _ _).trans ?_
  exact congrArg₂ (· * ·)
    ((blk1_0 (V5 m ρ) c t ⟨t.val, ht⟩ rfl _ _).trans (congrFun (entry1_padded m ρ c) _))
    ((blk1_1 (V5 m ρ) c t ⟨t.val, ht⟩ rfl _).trans (congrFun (entry1_scales m ρ c) _))

/-- An index of the [128, 256, 896] array lies in point t's block iff each coordinate lies in the block's range. -/
theorem mem_blk1 (t : Fin cfg1.N) (i : S128x256x896.Idx) :
    i ∈ ((cfg1.win 2).blk t).view.set ↔ ∀ a : Fin 3, win1_2.index t a * S1x256x896.size a ≤ (i a).val ∧ (i a).val < win1_2.index t a * S1x256x896.size a + S1x256x896.size a := by
  show i ∈ ((View.whole main_v24).slice (win1_2.rect t)).set ↔ _
  rw [View.set_slice_whole, Rect.mem_set_unit]
  exact Iff.rfl

/-- The 128 blocks cover the array (index (b, ch, q) lies in point b's block), so it ends holding the scaled fibres. -/
theorem scaled_final (c : Dev nD) : (dat1 (V5 m ρ) c).arrAt 2 cfg1.N = scaled m ρ c :=
  (dat1 (V5 m ρ) c).arrAt_eq_of_cover 2 (scaled m ρ c) (fun t _ => flushed1 m ρ c t) fun i => by
    have hi0 : (i 0).val < 128 := (i 0).isLt
    have hi1 : (i 1).val < 256 := (i 1).isLt
    have hi2 : (i 2).val < 896 := (i 2).isLt
    have hN : cfg1.N = 128 := N_1
    obtain ⟨t, ht⟩ : ∃ t : Fin cfg1.N, t.val = (i 0).val := ⟨⟨(i 0).val, by omega⟩, rfl⟩
    refine ⟨t, flush1_2 t, ?_⟩
    rw [mem_blk1]
    obtain ⟨-, -, -, -, -, -, e0, e1, e2⟩ := idx1 t
    intro a
    match a with
    | ⟨0, _⟩ => show win1_2.index t (0 : Fin 3) * 1 ≤ (i 0).val ∧ (i 0).val < win1_2.index t (0 : Fin 3) * 1 + 1; rw [e0]; omega
    | ⟨1, _⟩ => show win1_2.index t (1 : Fin 3) * 256 ≤ (i 1).val ∧ (i 1).val < win1_2.index t (1 : Fin 3) * 256 + 256; rw [e1]; omega
    | ⟨2, _⟩ => show win1_2.index t (2 : Fin 3) * 896 ≤ (i 2).val ∧ (i 2).val < win1_2.index t (2 : Fin 3) * 896 + 896; rw [e2]; omega

/-- After the second region its output array holds the scaled fibres. -/
theorem exit1_scaled (c : Dev nD) : W6 m ρ c (Proc.devRef .tc main_v24) = scaled m ρ c :=
  (W6_arr m ρ c 2).trans (scaled_final m ρ c)

/-! ## The result: the first 784 lanes, unflattened -/

/-- The result at (b, ch, hh, ww) is lane 28·hh + ww of the scaled padded fibre: that lane holds x[b, ch, hh, ww]
    (the quotient and remainder of 28·hh + ww by 28 are hh and ww), times the scale of channel ch of batch element b. -/
theorem result_apply (c : Dev nD) (b : Fin 128) (ch : Fin 256) (hh ww : Fin 28) :
    W7 m ρ c (Proc.devRef .tc main_v26) (ix4 b ch hh ww)
      = outR (fun k ch => Mask.EArr (ix2 ch k)) (aX m c) (aW1 m c) (aB1 m c) (aGamma m c) (aBeta m c) (aRm m c) (aRv m c)
          (aW2 m c) (aB2 m c) (ix4 b ch hh ww) := by
  have hq : 28 * hh.val + ww.val < 784 := by have := hh.isLt; have := ww.isLt; omega
  refine (tail_apply m ρ c b ch hh ww).trans ?_
  refine (congrFun (exit1_scaled m ρ c) _).trans ?_
  show padded m ρ c (ix3 b ch _) * scales m c (ix3 b ch (0 : Fin 1))
    = aX m c (ix4 b ch hh ww) * scaleR (fun k ch => Mask.EArr (ix2 ch k)) (aX m c) (aW1 m c) (aB1 m c) (aGamma m c) (aBeta m c) (aRm m c) (aRv m c) (aW2 m c) (aB2 m c) b ch
  refine congrArg₂ (· * ·) ?_ rfl
  refine (xpad_apply m ρ c b ch _).trans ?_
  rw [dif_pos hq]
  have key : ∀ (h1 w1 : Fin 28), h1 = hh → w1 = ww → aX m c (ix4 b ch h1 w1) = aX m c (ix4 b ch hh ww) := by
    rintro _ _ rfl rfl; rfl
  exact key _ _ (Fin.ext (by show (28 * hh.val + ww.val) / 28 = hh.val; have := ww.isLt; omega))
    (Fin.ext (by show (28 * hh.val + ww.val) % 28 = ww.val; have := ww.isLt; omega))

/-- The result array is x times the channel scale, the gain folded into the weights. -/
theorem result_eq (c : Dev nD) :
    W7 m ρ c (Proc.devRef .tc main_v26)
      = outR (fun k ch => Mask.EArr (ix2 ch k)) (aX m c) (aW1 m c) (aB1 m c) (aGamma m c) (aBeta m c) (aRm m c) (aRv m c)
          (aW2 m c) (aB2 m c) := by
  funext i
  have hi : i = ix4 (i 0) (i 1) (i 2) (i 3) := eq_ix4 i
  rw [hi]
  exact result_apply m ρ c _ _ _ _

end Arrays

/-- Every weakly fair execution ends with the result at x times the channel scale (gain folded into the weights),
    the arguments as launched. -/
theorem run : θ_run (defs (F := Ideal)) (onTc (τ := τ) (main (F := Ideal))) ⟨m, fun _ => 0, ρ⟩ (fun r => ∀ c : Dev nD,
      r.2.mem ((c.tc : Thread nD τ).loc main_v26)
        = outR (fun k ch => Mask.EArr (ix2 ch k)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c => ⟨(h c).1.trans (Arrays.result_eq m ρ c), (h c).2⟩) (run_named m ρ)

end Cert.GroupAtt.Ref

end
-- ==== Proof.lean ====
/-
  The certificate of the fused group-attention kernel against its two-pass reference, over the extended reals.

  Both programs multiply x[b, ch, ·, ·] by a channel scale: pool each channel's 784 positions (sum times the f32 word
  nearest 1/784, plus maximum), a hidden layer of 512 units under inference-mode batch normalisation, ReLU, sixteen
  group logits, a softmax over the groups, and the groups' weights expanded to their sixteen channels each. They
  differ in where the batch-normalisation gain g_j = gamma_j / √(rv_j + ε) meets the first contraction: one applies it
  to the contracted sum, the other folds it into the weights first. On the extended reals the two agree exactly when
  distributivity holds, that is when the pooled values, the weights and the gain are real numbers. The pooled values
  and the weights are real because the inputs are finite; the gain is real when the running variance is non-negative,
  which the precondition states (outside it the reference's own √ and quotient leave the reals: at rv_j = −ε the gain
  is an infinity and the two programs end at different values).

  The three frames are the programs' runs with the result dropped; `preserves` has no entry; `algebraic` puts the two
  runs side by side at one function of the argument arrays.
-/
import proofs.«148205_g2000704464797211_pallasbulk_780_16_alg».proof.Defs
import proofs.«148205_g2000704464797211_pallasbulk_780_16_alg».proof.Proof.Gen.Kernel
import proofs.«148205_g2000704464797211_pallasbulk_780_16_alg».proof.Proof.Gen.Kernel.Skeleton
import proofs.«148205_g2000704464797211_pallasbulk_780_16_alg».proof.Proof.Gen.Kernel.Launch
import proofs.«148205_g2000704464797211_pallasbulk_780_16_alg».proof.Proof.Gen.Kernel.Points
import proofs.«148205_g2000704464797211_pallasbulk_780_16_alg».proof.Proof.Gen.Kernel.Frame
import proofs.«148205_g2000704464797211_pallasbulk_780_16_alg».proof.Proof.Gen.KernelIdeal
import proofs.«148205_g2000704464797211_pallasbulk_780_16_alg».proof.Proof.Gen.KernelIdeal.Skeleton
import proofs.«148205_g2000704464797211_pallasbulk_780_16_alg».proof.Proof.Gen.KernelIdeal.Launch
import proofs.«148205_g2000704464797211_pallasbulk_780_16_alg».proof.Proof.Gen.KernelIdeal.Points
import proofs.«148205_g2000704464797211_pallasbulk_780_16_alg».proof.Proof.Gen.KernelIdeal.Frame
import proofs.«148205_g2000704464797211_pallasbulk_780_16_alg».proof.Proof.Gen.ReferenceIdeal
import proofs.«148205_g2000704464797211_pallasbulk_780_16_alg».proof.Proof.Gen.ReferenceIdeal.Skeleton
import proofs.«148205_g2000704464797211_pallasbulk_780_16_alg».proof.Proof.Gen.ReferenceIdeal.Launch
import proofs.«148205_g2000704464797211_pallasbulk_780_16_alg».proof.Proof.Gen.ReferenceIdeal.Points
import proofs.«148205_g2000704464797211_pallasbulk_780_16_alg».proof.Proof.Gen.ReferenceIdeal.Frame
import proofs.«148205_g2000704464797211_pallasbulk_780_16_alg».proof.Proof.Gen.Pre_finite_inputs
import proofs.«148205_g2000704464797211_pallasbulk_780_16_alg».proof.Proof.Spec
import proofs.«148205_g2000704464797211_pallasbulk_780_16_alg».proof.Proof.Algebra
import proofs.«148205_g2000704464797211_pallasbulk_780_16_alg».proof.Proof.Pre
import proofs.«148205_g2000704464797211_pallasbulk_780_16_alg».proof.Proof.Mask
import proofs.«148205_g2000704464797211_pallasbulk_780_16_alg».proof.Proof.KernValue
import proofs.«148205_g2000704464797211_pallasbulk_780_16_alg».proof.Proof.RefValue
import Idealize.ShloMosaic.Adequacy
import Idealize.ShloMosaic.Init

noncomputable section

namespace Cert.Proof

open Idealize.ShloMosaic Idealize.ShloMosaic.ValueIdx Idealize.SL.Sem Cert.GroupAtt

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Under the precondition the two programs end at one array: x times the channel scale, whichever way the gain
    meets the first contraction, the membership matrix read in either orientation. -/
theorem algebraic : Cert.algebraic_KernelIdeal_ReferenceIdeal := by
  intro m ρ m' ρ' hpre hagree
  refine ⟨fun c => outK (fun k ch => Mask.EtArr (ix2 k ch)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.GroupAtt.Kern.run m ρ, ?_⟩
  refine (θ_run (Cert.ReferenceIdeal.defs (F := Ideal)) _ _).mono (fun r h c => ⟨(h c).1.trans ?_, (h c).2⟩)
    (Cert.GroupAtt.Ref.run m' ρ')
  obtain ⟨e0, e1, e2, e3, e4, e5, e6, e7, e8⟩ := hagree c
  rw [e0, e1, e2, e3, e4, e5, e6, e7, e8]
  obtain ⟨hx, hw1, hgamma, hrv⟩ := decode _ _ _ _ _ _ _ _ _ (hpre c)
  show outR _ _ _ _ _ _ _ _ _ _ = outK _ _ _ _ _ _ _ _ _ _
  refine Eq.trans ?_ (outK_eq_outR _ _ _ _ _ _ _ _ _ _ hx hw1 hgamma hrv).symm
  exact congrArg (fun E => outR E _ _ _ _ _ _ _ _ _) (funext fun k => funext fun ch => Mask.EArr_apply ch k)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
